-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x480x640 : Shape := ⟨3, ![64, 480, 640]⟩
abbrev S32x640 : Shape := ⟨2, ![32, 640]⟩
abbrev S_ : Shape := ⟨0, ![]⟩

class Facts : Prop where
  bcast_S_S64x480x640 : S_.BroadcastsInDim S64x480x640 (![] : Fin 0 → Fin S64x480x640.rank)
  reducesTo_S64x480x640_S_d0_1_2 : S64x480x640.ReducesTo [0, 1, 2] S_
  h_S_ : 0 < S_.numel
  bcast_S_S32x640 : S_.BroadcastsInDim S32x640 (![] : Fin 0 → Fin S32x640.rank)
  reducesTo_S32x640_S_d0_1 : S32x640.ReducesTo [0, 1] S_

variable [Facts]

def fn {F : FTy → Type} [FloatOps F] (main_arg0 : FVec F S64x480x640 .f32) (main_arg1 : FVec F S64x480x640 .f32) (main_arg2 : FVec F S32x640 .f32) : IVec S_ 1 :=
  let main_v0 : FVec F S64x480x640 .f32 := Host.absf main_arg0
  let main_cst : FVec F S_ .f32 := constant S_ .f32 0x7F800000#32
  let main_v1 : FVec F S64x480x640 .f32 := broadcastInDim S64x480x640 ![] bcast_S_S64x480x640 main_cst
  let main_v2 : IVec S64x480x640 1 := cmpf .olt main_v0 main_v1
  let main_c : IVec S_ 1 := constantI S_ 1 1#1
  let main_v3 : IVec S_ 1 := (fun x v => Host.reduce IntOp.andi x v reducesTo_S64x480x640_S_d0_1_2 h_S_) main_v2 main_c
  let main_v4 : FVec F S64x480x640 .f32 := Host.absf main_arg1
  let main_cst_0 : FVec F S_ .f32 := constant S_ .f32 0x7F800000#32
  let main_v5 : FVec F S64x480x640 .f32 := broadcastInDim S64x480x640 ![] bcast_S_S64x480x640 main_cst_0
  let main_v6 : IVec S64x480x640 1 := cmpf .olt main_v4 main_v5
  let main_c_1 : IVec S_ 1 := constantI S_ 1 1#1
  let main_v7 : IVec S_ 1 := (fun x v => Host.reduce IntOp.andi x v reducesTo_S64x480x640_S_d0_1_2 h_S_) main_v6 main_c_1
  let main_v8 : IVec S_ 1 := andi main_v3 main_v7
  let main_v9 : FVec F S32x640 .f32 := Host.absf main_arg2
  let main_cst_2 : FVec F S_ .f32 := constant S_ .f32 0x7F800000#32
  let main_v10 : FVec F S32x640 .f32 := broadcastInDim S32x640 ![] bcast_S_S32x640 main_cst_2
  let main_v11 : IVec S32x640 1 := cmpf .olt main_v9 main_v10
  let main_c_3 : IVec S_ 1 := constantI S_ 1 1#1
  let main_v12 : IVec S_ 1 := (fun x v => Host.reduce IntOp.andi x v reducesTo_S32x640_S_d0_1 h_S_) main_v11 main_c_3
  let main_v13 : IVec S_ 1 := andi main_v8 main_v12
  main_v13
-- ==== Kernel.lean ====
abbrev S64x480x640 : Shape := ⟨3, ![64, 480, 640]⟩
abbrev S32x640 : Shape := ⟨2, ![32, 640]⟩
abbrev S64x640 : Shape := ⟨2, ![64, 640]⟩
abbrev S16x96x640 : Shape := ⟨3, ![16, 96, 640]⟩
abbrev S16x640 : Shape := ⟨2, ![16, 640]⟩
abbrev S16x1x640 : Shape := ⟨3, ![16, 1, 640]⟩
abbrev S_ : Shape := ⟨0, ![]⟩
abbrev S64x1x640 : Shape := ⟨3, ![64, 1, 640]⟩
abbrev S1x32x640 : Shape := ⟨3, ![1, 32, 640]⟩
abbrev S64x32x640 : Shape := ⟨3, ![64, 32, 640]⟩
abbrev S64x32 : Shape := ⟨2, ![64, 32]⟩
abbrev S64x32x1 : Shape := ⟨3, ![64, 32, 1]⟩
abbrev S32 : Shape := ⟨1, ![32]⟩
abbrev S1x32 : Shape := ⟨2, ![1, 32]⟩

abbrev nBuf : Space → Nat
  | .hbm => 53
  | .vmem => 10
  | .smem => 0
  | _ => 0

abbrev bufTy : (tb : Table) → Fin (tcTables nBuf tb) → BufTy
  | .hbm, ⟨0, _⟩ => ⟨S64x480x640, .f32⟩
  | .hbm, ⟨1, _⟩ => ⟨S64x480x640, .f32⟩
  | .hbm, ⟨2, _⟩ => ⟨S32x640, .f32⟩
  | .hbm, ⟨3, _⟩ => ⟨S64x640, .f32⟩
  | .hbm, ⟨4, _⟩ => ⟨S64x640, .f32⟩
  | .hbm, ⟨5, _⟩ => ⟨S_, .f32⟩
  | .hbm, ⟨6, _⟩ => ⟨S32x640, .f32⟩
  | .hbm, ⟨7, _⟩ => ⟨S32x640, .f32⟩
  | .hbm, ⟨8, _⟩ => ⟨S32x640, .f32⟩
  | .hbm, ⟨9, _⟩ => ⟨S64x1x640, .f32⟩
  | .hbm, ⟨10, _⟩ => ⟨S1x32x640, .f32⟩
  | .hbm, ⟨11, _⟩ => ⟨S64x32x640, .f32⟩
  | .hbm, ⟨12, _⟩ => ⟨S64x32x640, .f32⟩
  | .hbm, ⟨13, _⟩ => ⟨S64x32x640, .f32⟩
  | .hbm, ⟨14, _⟩ => ⟨S_, .f32⟩
  | .hbm, ⟨15, _⟩ => ⟨S64x32, .f32⟩
  | .hbm, ⟨16, _⟩ => ⟨S1x32x640, .f32⟩
  | .hbm, ⟨17, _⟩ => ⟨S64x1x640, .f32⟩
  | .hbm, ⟨18, _⟩ => ⟨S64x32x640, .f32⟩
  | .hbm, ⟨19, _⟩ => ⟨S64x32x640, .f32⟩
  | .hbm, ⟨20, _⟩ => ⟨S64x32x640, .f32⟩
  | .hbm, ⟨21, _⟩ => ⟨S64x32x1, .f32⟩
  | .hbm, ⟨22, _⟩ => ⟨S64x32x640, .f32⟩
  | .hbm, ⟨23, _⟩ => ⟨S64x32x640, .f32⟩
  | .hbm, ⟨24, _⟩ => ⟨S64x32x640, .f32⟩
  | .hbm, ⟨25, _⟩ => ⟨S64x1x640, .f32⟩
  | .hbm, ⟨26, _⟩ => ⟨S64x32x640, .f32⟩
  | .hbm, ⟨27, _⟩ => ⟨S64x32x640, .f32⟩
  | .hbm, ⟨28, _⟩ => ⟨S_, .f32⟩
  | .hbm, ⟨29, _⟩ => ⟨S64x32, .f32⟩
  | .hbm, ⟨30, _⟩ => ⟨S_, .f32⟩
  | .hbm, ⟨31, _⟩ => ⟨S64x32, .f32⟩
  | .hbm, ⟨32, _⟩ => ⟨S64x32, .f32⟩
  | .hbm, ⟨33, _⟩ => ⟨S64x32, .f32⟩
  | .hbm, ⟨34, _⟩ => ⟨S64x32, .f32⟩
  | .hbm, ⟨35, _⟩ => ⟨S64x32, .f32⟩
  | .hbm, ⟨36, _⟩ => ⟨S_, .f32⟩
  | .hbm, ⟨37, _⟩ => ⟨S64x32, .f32⟩
  | .hbm, ⟨38, _⟩ => ⟨S64x32, .f32⟩
  | .hbm, ⟨39, _⟩ => ⟨S_, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S1x32, .f32⟩
  | .hbm, ⟨45, _⟩ => ⟨S_, .f32⟩
  | .hbm, ⟨46, _⟩ => ⟨S1x32, .f32⟩
  | .hbm, ⟨47, _⟩ => ⟨S1x32, .i1⟩
  | .hbm, ⟨48, _⟩ => ⟨S_, .f32⟩
  | .hbm, ⟨49, _⟩ => ⟨S_, .f32⟩
  | .hbm, ⟨50, _⟩ => ⟨S64x32, .i1⟩
  | .hbm, ⟨51, _⟩ => ⟨S64x32, .f32⟩
  | .hbm, ⟨52, _⟩ => ⟨S64x32, .f32⟩
  | .local _ .vmem, ⟨0, _⟩ => ⟨S16x96x640, .f32⟩
  | .local _ .vmem, ⟨1, _⟩ => ⟨S16x96x640, .f32⟩
  | .local _ .vmem, ⟨2, _⟩ => ⟨S16x96x640, .f32⟩
  | .local _ .vmem, ⟨3, _⟩ => ⟨S16x96x640, .f32⟩
  | .local _ .vmem, ⟨4, _⟩ => ⟨S16x640, .f32⟩
  | .local _ .vmem, ⟨5, _⟩ => ⟨S16x640, .f32⟩
  | .local _ .vmem, ⟨6, _⟩ => ⟨S16x640, .f32⟩
  | .local _ .vmem, ⟨7, _⟩ => ⟨S16x640, .f32⟩
  | .local _ .vmem, ⟨8, _⟩ => ⟨S16x640, .f32⟩
  | .local _ .vmem, ⟨9, _⟩ => ⟨S16x640, .f32⟩
  | _, _ => ⟨S64x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 3], ![false, false]⟩

def k0_cond2 (i : grid0.Coords) : BitVec 1 :=
  let arg1 : BitVec 32 := BitVec.ofNat 32 (i 1).val
  let c2_i32 : BitVec 32 := 2#32
  let v34 : BitVec 1 := Scalar.cmpi .eq arg1 c2_i32
  let v35 : BitVec 32 := Scalar.extui v34
  let c0_i32_20 : BitVec 32 := 0#32
  let v36 : BitVec 1 := Scalar.cmpi .ne v35 c0_i32_20
  v36

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x96x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x96x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x640_S16x640_0_0 : ∀ a, (![0, 0] : Fin 2 → Nat) a + S16x640.size a ≤ S16x640.size a
  h_S16x640 : 0 < S16x640.numel
  shapeCasts_S16x640_S16x640 : S16x640.ShapeCasts S16x640
  inb_S16x96x640_S16x96x640_0_0_0 : ∀ a, (![0, 0, 0] : Fin 3 → Nat) a + S16x96x640.size a ≤ S16x96x640.size a
  h_S16x96x640 : 0 < S16x96x640.numel
  reduces_S16x96x640_S16x640 : S16x96x640.Reduces [1] S16x640
  shapeCasts_S16x640_S16x1x640 : S16x640.ShapeCasts S16x1x640
  broadcasts_S16x1x640_S16x96x640 : S16x1x640.Broadcasts S16x96x640
  bcast_S_S32x640 : S_.BroadcastsInDim S32x640 (![] : Fin 0 → Fin S32x640.rank)
  bcast_S64x640_S64x1x640_0_2 : S64x640.BroadcastsInDim S64x1x640 (![0, 2] : Fin 2 → Fin S64x1x640.rank)
  bcast_S32x640_S1x32x640_1_2 : S32x640.BroadcastsInDim S1x32x640 (![1, 2] : Fin 2 → Fin S1x32x640.rank)
  bcast_S64x1x640_S64x32x640_0_1_2 : S64x1x640.BroadcastsInDim S64x32x640 (![0, 1, 2] : Fin 3 → Fin S64x32x640.rank)
  bcast_S1x32x640_S64x32x640_0_1_2 : S1x32x640.BroadcastsInDim S64x32x640 (![0, 1, 2] : Fin 3 → Fin S64x32x640.rank)
  reducesTo_S64x32x640_S64x32_d2 : S64x32x640.ReducesTo [2] S64x32
  h_S_ : 0 < S_.numel
  bcast_S64x32_S64x32x1_0_1 : S64x32.BroadcastsInDim S64x32x1 (![0, 1] : Fin 2 → Fin S64x32x1.rank)
  bcast_S64x32x1_S64x32x640_0_1_2 : S64x32x1.BroadcastsInDim S64x32x640 (![0, 1, 2] : Fin 3 → Fin S64x32x640.rank)
  bcast_S_S64x32 : S_.BroadcastsInDim S64x32 (![] : Fin 0 → Fin S64x32.rank)
  reducesTo_S32x640_S32_d1 : S32x640.ReducesTo [1] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S64x32_0_1 : S1x32.BroadcastsInDim S64x32 (![0, 1] : Fin 2 → Fin S64x32.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x96x640.size a ≤ S64x480x640.size a
  hwx0_0 : ∀ i : grid0.Coords, EltTy.bits .f32 = 32 ∨ (Rect.block (s := S64x480x640) S16x96x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x96x640.size a ≤ S64x480x640.size a
  hwx0_1 : ∀ i : grid0.Coords, EltTy.bits .f32 = 32 ∨ (Rect.block (s := S64x480x640) S16x96x640.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x640.size a ≤ S64x640.size a
  hwx0_2 : ∀ i : grid0.Coords, EltTy.bits .f32 = 32 ∨ (Rect.block (s := S64x640) S16x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x640.size a ≤ S64x640.size a
  hwx0_3 : ∀ i : grid0.Coords, EltTy.bits .f32 = 32 ∨ (Rect.block (s := S64x640) S16x640.size (cc0_transform_3 i) (hinb0_3 i)).WholeWords (EltTy.packing .f32)

variable [Facts₀]

abbrev win0_0 : Pipeline.Window sig grid0 :=
  Pipeline.Window.ofSpec (Memref.whole main_arg0) S16x96x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x96x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x640.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x480x640 : Shape := ⟨3, ![64, 480, 640]⟩
abbrev S32x640 : Shape := ⟨2, ![32, 640]⟩
abbrev S64x288x640 : Shape := ⟨3, ![64, 288, 640]⟩
abbrev S_ : Shape := ⟨0, ![]⟩
abbrev S64x640 : Shape := ⟨2, ![64, 640]⟩
abbrev S64x1x640 : Shape := ⟨3, ![64, 1, 640]⟩
abbrev S1x32x640 : Shape := ⟨3, ![1, 32, 640]⟩
abbrev S64x32x640 : Shape := ⟨3, ![64, 32, 640]⟩
abbrev S64x32 : Shape := ⟨2, ![64, 32]⟩
abbrev S64x32x1 : Shape := ⟨3, ![64, 32, 1]⟩
abbrev S32 : Shape := ⟨1, ![32]⟩
abbrev S1x32 : Shape := ⟨2, ![1, 32]⟩

abbrev nBuf : Space → Nat
  | .hbm => 73
  | .vmem => 0
  | .smem => 0
  | _ => 0

abbrev bufTy : (tb : Table) → Fin (tcTables nBuf tb) → BufTy
  | .hbm, ⟨0, _⟩ => ⟨S64x480x640, .f32⟩
  | .hbm, ⟨1, _⟩ => ⟨S64x480x640, .f32⟩
  | .hbm, ⟨2, _⟩ => ⟨S32x640, .f32⟩
  | .hbm, ⟨3, _⟩ => ⟨S64x288x640, .f32⟩
  | .hbm, ⟨4, _⟩ => ⟨S64x288x640, .f32⟩
  | .hbm, ⟨5, _⟩ => ⟨S64x288x640, .f32⟩
  | .hbm, ⟨6, _⟩ => ⟨S_, .f32⟩
  | .hbm, ⟨7, _⟩ => ⟨S64x288x640, .f32⟩
  | .hbm, ⟨8, _⟩ => ⟨S64x288x640, .f32⟩
  | .hbm, ⟨9, _⟩ => ⟨S_, .f32⟩
  | .hbm, ⟨10, _⟩ => ⟨S64x288x640, .f32⟩
  | .hbm, ⟨11, _⟩ => ⟨S64x288x640, .f32⟩
  | .hbm, ⟨12, _⟩ => ⟨S64x288x640, .f32⟩
  | .hbm, ⟨13, _⟩ => ⟨S_, .f32⟩
  | .hbm, ⟨14, _⟩ => ⟨S32x640, .f32⟩
  | .hbm, ⟨15, _⟩ => ⟨S32x640, .f32⟩
  | .hbm, ⟨16, _⟩ => ⟨S32x640, .f32⟩
  | .hbm, ⟨17, _⟩ => ⟨S_, .f32⟩
  | .hbm, ⟨18, _⟩ => ⟨S64x288x640, .f32⟩
  | .hbm, ⟨19, _⟩ => ⟨S64x288x640, .f32⟩
  | .hbm, ⟨20, _⟩ => ⟨S_, .f32⟩
  | .hbm, ⟨21, _⟩ => ⟨S64x640, .f32⟩
  | .hbm, ⟨22, _⟩ => ⟨S64x1x640, .f32⟩
  | .hbm, ⟨23, _⟩ => ⟨S64x288x640, .f32⟩
  | .hbm, ⟨24, _⟩ => ⟨S64x288x640, .f32⟩
  | .hbm, ⟨25, _⟩ => ⟨S64x288x640, .f32⟩
  | .hbm, ⟨26, _⟩ => ⟨S64x288x640, .f32⟩
  | .hbm, ⟨27, _⟩ => ⟨S_, .f32⟩
  | .hbm, ⟨28, _⟩ => ⟨S64x640, .f32⟩
  | .hbm, ⟨29, _⟩ => ⟨S64x1x640, .f32⟩
  | .hbm, ⟨30, _⟩ => ⟨S1x32x640, .f32⟩
  | .hbm, ⟨31, _⟩ => ⟨S64x32x640, .f32⟩
  | .hbm, ⟨32, _⟩ => ⟨S64x32x640, .f32⟩
  | .hbm, ⟨33, _⟩ => ⟨S64x32x640, .f32⟩
  | .hbm, ⟨34, _⟩ => ⟨S_, .f32⟩
  | .hbm, ⟨35, _⟩ => ⟨S64x32, .f32⟩
  | .hbm, ⟨36, _⟩ => ⟨S1x32x640, .f32⟩
  | .hbm, ⟨37, _⟩ => ⟨S64x1x640, .f32⟩
  | .hbm, ⟨38, _⟩ => ⟨S64x32x640, .f32⟩
  | .hbm, ⟨39, _⟩ => ⟨S64x32x640, .f32⟩
  | .hbm, ⟨40, _⟩ => ⟨S64x32x640, .f32⟩
  | .hbm, ⟨41, _⟩ => ⟨S64x32x1, .f32⟩
  | .hbm, ⟨42, _⟩ => ⟨S64x32x640, .f32⟩
  | .hbm, ⟨43, _⟩ => ⟨S64x32x640, .f32⟩
  | .hbm, ⟨44, _⟩ => ⟨S64x32x640, .f32⟩
  | .hbm, ⟨45, _⟩ => ⟨S64x1x640, .f32⟩
  | .hbm, ⟨46, _⟩ => ⟨S64x32x640, .f32⟩
  | .hbm, ⟨47, _⟩ => ⟨S64x32x640, .f32⟩
  | .hbm, ⟨48, _⟩ => ⟨S_, .f32⟩
  | .hbm, ⟨49, _⟩ => ⟨S64x32, .f32⟩
  | .hbm, ⟨50, _⟩ => ⟨S_, .f32⟩
  | .hbm, ⟨51, _⟩ => ⟨S64x32, .f32⟩
  | .hbm, ⟨52, _⟩ => ⟨S64x32, .f32⟩
  | .hbm, ⟨53, _⟩ => ⟨S64x32, .f32⟩
  | .hbm, ⟨54, _⟩ => ⟨S64x32, .f32⟩
  | .hbm, ⟨55, _⟩ => ⟨S64x32, .f32⟩
  | .hbm, ⟨56, _⟩ => ⟨S_, .f32⟩
  | .hbm, ⟨57, _⟩ => ⟨S64x32, .f32⟩
  | .hbm, ⟨58, _⟩ => ⟨S64x32, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S1x32, .f32⟩
  | .hbm, ⟨65, _⟩ => ⟨S_, .f32⟩
  | .hbm, ⟨66, _⟩ => ⟨S1x32, .f32⟩
  | .hbm, ⟨67, _⟩ => ⟨S1x32, .i1⟩
  | .hbm, ⟨68, _⟩ => ⟨S_, .f32⟩
  | .hbm, ⟨69, _⟩ => ⟨S_, .f32⟩
  | .hbm, ⟨70, _⟩ => ⟨S64x32, .i1⟩
  | .hbm, ⟨71, _⟩ => ⟨S64x32, .f32⟩
  | .hbm, ⟨72, _⟩ => ⟨S64x32, .f32⟩
  | _, _ => ⟨S64x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v52 : Ref sig .tc := ⟨.hbm, 72, rfl⟩

abbrev nD : Nat := 1
abbrev τ : Topo := Topo.v7x

variable {F : FTy → Type} [FloatOps F]

class Facts₀ : Prop where
  slices_S64x480x640_S64x288x640_0_192_0 : S64x480x640.Slices ![0, 192, 0] S64x288x640
  bcast_S_S64x288x640 : S_.BroadcastsInDim S64x288x640 (![] : Fin 0 → Fin S64x288x640.rank)
  bcast_S_S32x640 : S_.BroadcastsInDim S32x640 (![] : Fin 0 → Fin S32x640.rank)
  reducesTo_S64x288x640_S64x640_d1 : S64x288x640.ReducesTo [1] S64x640
  h_S_ : 0 < S_.numel
  bcast_S64x640_S64x1x640_0_2 : S64x640.BroadcastsInDim S64x1x640 (![0, 2] : Fin 2 → Fin S64x1x640.rank)
  bcast_S64x1x640_S64x288x640_0_1_2 : S64x1x640.BroadcastsInDim S64x288x640 (![0, 1, 2] : Fin 3 → Fin S64x288x640.rank)
  bcast_S32x640_S1x32x640_1_2 : S32x640.BroadcastsInDim S1x32x640 (![1, 2] : Fin 2 → Fin S1x32x640.rank)
  bcast_S64x1x640_S64x32x640_0_1_2 : S64x1x640.BroadcastsInDim S64x32x640 (![0, 1, 2] : Fin 3 → Fin S64x32x640.rank)
  bcast_S1x32x640_S64x32x640_0_1_2 : S1x32x640.BroadcastsInDim S64x32x640 (![0, 1, 2] : Fin 3 → Fin S64x32x640.rank)
  reducesTo_S64x32x640_S64x32_d2 : S64x32x640.ReducesTo [2] S64x32
  bcast_S64x32_S64x32x1_0_1 : S64x32.BroadcastsInDim S64x32x1 (![0, 1] : Fin 2 → Fin S64x32x1.rank)
  bcast_S64x32x1_S64x32x640_0_1_2 : S64x32x1.BroadcastsInDim S64x32x640 (![0, 1, 2] : Fin 3 → Fin S64x32x640.rank)
  bcast_S_S64x32 : S_.BroadcastsInDim S64x32 (![] : Fin 0 → Fin S64x32.rank)
  reducesTo_S32x640_S32_d1 : S32x640.ReducesTo [1] S32
  bcast_S_S32 : S_.BroadcastsInDim S32 (![] : Fin 0 → Fin S32.rank)
  bcast_S32_S1x32_1 : S32.BroadcastsInDim S1x32 (![1] : Fin 1 → Fin S1x32.rank)
  bcast_S_S1x32 : S_.BroadcastsInDim S1x32 (![] : Fin 0 → Fin S1x32.rank)
  bcast_S1x32_S64x32_0_1 : S1x32.BroadcastsInDim S64x32 (![0, 1] : Fin 2 → Fin S64x32.rank)

variable [Facts₀]

class Facts : Prop extends Facts₀ where

variable [Facts]
-- ==== Proof.Pieces.lean ====
/-
  What one grid point leaves in the two carried scratch arrays and, at the last row block, in the two
  outputs — each as the body's arithmetic (the payloads) of the point's input blocks and of what the
  point before left.

  Scratch 0 carries the running column maximum m, scratch 1 the running rescaled column sum l.
    first row block (case A):  m := max(-∞, blockmax),      l := 0 · exp(-∞ - m) + blocksum(m)
        (the body first resets m to -∞ and l to 0 and reads those back);
    later row blocks (B, C):   m := max(m_prev, blockmax),  l := l_prev · exp(m_prev - m) + blocksum(m);
    at the last row block (C) the outputs receive m and l as just updated.
  k0_pay5 is the new maximum, k0_pay6 the new sum, k0_pay2 / k0_pay3 the reset values, k0_pay1 the identity cast.
-/
import proofs.«122003_j69973607186476_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.ColValue

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-! ## The first row block: from the reset values -/

theorem scratchMax_A (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : cond0_0 i) (hc1 : ¬cond0_1 i)
    (x0 x1 : Vec F S16x96x640 .f32) :
    sout0_A_0 c i a2 h2 a3 h3 a4 h4 a5 h5 a6 h6 a7 h7 hc0 hc1 x0 x1 = k0_pay1 (k0_pay5 x0 x1 k0_pay2) := by
  unfold sout0_A_0
  rw [View.read_writes_eq_canon _ _ _ (scover0_A_0 c i a2 h2 a3 h3 a4 h4 a5 h5 a6 h6 a7 h7 hc0 hc1 x0 x1)]
  unfold kernelRun0_A
  dsimp only
  sl_unfold_words
  rw [View.canon_cons_unit_zero (S := S16x640) hz, View.readCov_unit_zero (S := S16x640) _ hz]
  simp only [View.readAt_eq_ld, h2.read_unread, h3.read_unread, h6.read_unread, h7.read_unread, View.ld_unit_zero (S := S16x96x640) hz3, View.ld_unit_zero (S := S16x640) hz, View.readCov_unit_zero (S := S16x640) _ hz]

theorem scratchSum_A (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : cond0_0 i) (hc1 : ¬cond0_1 i)
    (x0 x1 : Vec F S16x96x640 .f32) :
    sout0_A_1 c i a2 h2 a3 h3 a4 h4 a5 h5 a6 h6 a7 h7 hc0 hc1 x0 x1 = k0_pay6 x0 x1 k0_pay2 k0_pay2 k0_pay3 := by
  unfold sout0_A_1
  rw [View.read_writes_eq_canon _ _ _ (scover0_A_1 c i a2 h2 a3 h3 a4 h4 a5 h5 a6 h6 a7 h7 hc0 hc1 x0 x1)]
  unfold kernelRun0_A
  dsimp only
  sl_unfold_words
  rw [View.canon_cons_unit_zero (S := S16x640) hz, View.readCov_unit_zero (S := S16x640) _ hz]
  simp only [View.readAt_eq_ld, h2.read_unread, h3.read_unread, h6.read_unread, h7.read_unread, View.ld_unit_zero (S := S16x96x640) hz3, View.ld_unit_zero (S := S16x640) hz, View.readCov_unit_zero (S := S16x640) _ hz]

/-! ## The middle row block: over what the block before left -/

theorem scratchMax_B (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : ¬cond0_0 i) (hc1 : ¬cond0_1 i)
    (x0 x1 : Vec F S16x96x640 .f32) (xs0 xs1 : Vec F S16x640 .f32) :
    sout0_B_0 c i a2 h2 a3 h3 a4 h4 a5 h5 a6 h6 a7 h7 hc0 hc1 x0 x1 xs0 xs1 = k0_pay1 (k0_pay5 x0 x1 xs0) := by
  unfold sout0_B_0
  rw [View.read_writes_eq_canon _ _ _ (scover0_B_0 c i a2 h2 a3 h3 a4 h4 a5 h5 a6 h6 a7 h7 hc0 hc1 x0 x1 xs0 xs1)]
  unfold kernelRun0_B
  dsimp only
  sl_unfold_words
  rw [View.canon_unit_zero hz]
  simp only [View.readAt_eq_ld, h2.read_unread, h3.read_unread, h6.read_unread, h7.read_unread, View.ld_unit_zero (S := S16x96x640) hz3, View.ld_unit_zero (S := S16x640) hz, View.readCov_unit_zero (S := S16x640) _ hz]

theorem scratchSum_B (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : ¬cond0_0 i) (hc1 : ¬cond0_1 i)
    (x0 x1 : Vec F S16x96x640 .f32) (xs0 xs1 : Vec F S16x640 .f32) :
    sout0_B_1 c i a2 h2 a3 h3 a4 h4 a5 h5 a6 h6 a7 h7 hc0 hc1 x0 x1 xs0 xs1 = k0_pay6 x0 x1 xs0 xs0 xs1 := by
  unfold sout0_B_1
  rw [View.read_writes_eq_canon _ _ _ (scover0_B_1 c i a2 h2 a3 h3 a4 h4 a5 h5 a6 h6 a7 h7 hc0 hc1 x0 x1 xs0 xs1)]
  unfold kernelRun0_B
  dsimp only
  sl_unfold_words
  rw [View.canon_unit_zero hz]
  simp only [View.readAt_eq_ld, h2.read_unread, h3.read_unread, h6.read_unread, h7.read_unread, View.ld_unit_zero (S := S16x96x640) hz3, View.ld_unit_zero (S := S16x640) hz, View.readCov_unit_zero (S := S16x640) _ hz]

/-! ## The last row block: the same update, and the outputs receive it -/

theorem scratchMax_C (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : ¬cond0_0 i) (hc1 : cond0_1 i)
    (x0 x1 : Vec F S16x96x640 .f32) (xs0 xs1 : Vec F S16x640 .f32) :
    sout0_C_0 c i a2 h2 a3 h3 a4 h4 a5 h5 a6 h6 a7 h7 hc0 hc1 x0 x1 xs0 xs1 = k0_pay1 (k0_pay5 x0 x1 xs0) := by
  unfold sout0_C_0
  rw [View.read_writes_eq_canon _ _ _ (scover0_C_0 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread, View.ld_unit_zero (S := S16x96x640) hz3, View.ld_unit_zero (S := S16x640) hz, View.readCov_unit_zero (S := S16x640) _ hz]

theorem scratchSum_C (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : ¬cond0_0 i) (hc1 : cond0_1 i)
    (x0 x1 : Vec F S16x96x640 .f32) (xs0 xs1 : Vec F S16x640 .f32) :
    sout0_C_1 c i a2 h2 a3 h3 a4 h4 a5 h5 a6 h6 a7 h7 hc0 hc1 x0 x1 xs0 xs1 = k0_pay6 x0 x1 xs0 xs0 xs1 := by
  unfold sout0_C_1
  rw [View.read_writes_eq_canon _ _ _ (scover0_C_1 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread, View.ld_unit_zero (S := S16x96x640) hz3, View.ld_unit_zero (S := S16x640) hz, View.readCov_unit_zero (S := S16x640) _ hz]

theorem outMax_C (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : ¬cond0_0 i) (hc1 : cond0_1 i)
    (x0 x1 : Vec F S16x96x640 .f32) (xs0 xs1 : Vec F S16x640 .f32) :
    out0_C_2 c i a2 h2 a3 h3 a4 h4 a5 h5 a6 h6 a7 h7 hc0 hc1 x0 x1 xs0 xs1 = k0_pay1 (k0_pay5 x0 x1 xs0) := by
  unfold out0_C_2
  rw [View.read_writes_eq_canon _ _ _ (cover0_C_2 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread, View.ld_unit_zero (S := S16x96x640) hz3, View.ld_unit_zero (S := S16x640) hz, View.readCov_unit_zero (S := S16x640) _ hz]

theorem outSum_C (c : Dev nD) (i : grid0.Coords) (a2 : Memref sig .tc .vmem S16x96x640 .f32) (h2 : a2.IsWhole) (a3 : Memref sig .tc .vmem S16x96x640 .f32) (h3 : a3.IsWhole) (a4 : Memref sig .tc .vmem S16x640 .f32) (h4 : a4.IsWhole) (a5 : Memref sig .tc .vmem S16x640 .f32) (h5 : a5.IsWhole) (a6 : Memref sig .tc .vmem S16x640 .f32) (h6 : a6.IsWhole) (a7 : Memref sig .tc .vmem S16x640 .f32) (h7 : a7.IsWhole) (hc0 : ¬cond0_0 i) (hc1 : cond0_1 i)
    (x0 x1 : Vec F S16x96x640 .f32) (xs0 xs1 : Vec F S16x640 .f32) :
    out0_C_3 c i a2 h2 a3 h3 a4 h4 a5 h5 a6 h6 a7 h7 hc0 hc1 x0 x1 xs0 xs1 = k0_pay6 x0 x1 xs0 xs0 xs1 := by
  unfold out0_C_3
  rw [View.read_writes_eq_canon _ _ _ (cover0_C_3 c i a2 h2 a3 h3 a4 h4 a5 h5 a6 h6 a7 h7 hc0 hc1 x0 x1 xs0 xs1)]
  unfold kernelRun0_C
  dsimp only
  sl_unfold_words
  rw [View.canon_unit_zero hz]
  simp only [View.readAt_eq_ld, h2.read_unread, h3.read_unread, h6.read_unread, h7.read_unread, View.ld_unit_zero (S := S16x96x640) hz3, View.ld_unit_zero (S := S16x640) hz, View.readCov_unit_zero (S := S16x640) _ hz]

end Cert.KernelIdeal.ColValue

end
-- ==== Proof.RowBlocks.lean ====
/-
  Three row blocks against one column reduction, on the extended reals.

  For one image column the cropped rows are indexed by Fin 288 and come in three blocks of 96
  consecutive rows.  A column reduction taken block by block carries a running maximum
  m0 ≤ m1 ≤ m2 and a running sum that is rescaled by exp (m_old - m_new) each time the maximum
  moves:
      l_new = l_old · exp (m_old - m_new) + Σ_{rows of the block} exp (a - m_new) · k .
  The running maximum after the third block is the maximum over all 288 rows (max is
  associative, commutative and idempotent: no finiteness is needed).  The running sum after the
  third block is Σ_{all rows} exp (a - m2) · k: for REAL entries exp (a - m0) · exp (m0 - m1) is
  exp (a - m1), and multiplication distributes over a finite sum of reals.  On the extended
  reals this needs every a and k finite, since the factor exp (m_old - m_new) is moved across a
  sum; the first block starts from the maximum ⊥ and the sum 0, where 0 · exp (⊥ - m0) = 0.
-/
import Idealize.ShloMosaic.PureOps.Ideal

noncomputable section

namespace Cert.RowBlocks

open Idealize.ShloMosaic

/-- Row i of row block r among the 288 cropped rows: row i + 96 r. -/
def blk (r : Fin 3) (i : Fin 96) : Fin 288 :=
  ⟨i.val + 96 * r.val, by have := i.isLt; have := r.isLt; omega⟩

theorem blk_val (r : Fin 3) (i : Fin 96) : (blk r i).val = i.val + 96 * r.val := rfl

/-- Every cropped row lies in exactly one block: row j is row j % 96 of block j / 96. -/
theorem exists_blk (j : Fin 288) : ∃ r i, j = blk r i :=
  ⟨⟨j.val / 96, by have := j.isLt; omega⟩, ⟨j.val % 96, Nat.mod_lt _ (by decide)⟩,
    Fin.ext (by rw [blk_val]; exact (Nat.mod_add_div _ _).symm)⟩

/-- A sum over the 288 rows is the sum of the three blocks' sums. -/
theorem sum_blocks {M : Type} [AddCommMonoid M] (f : Fin 288 → M) :
    ∑ j, f j = (∑ i, f (blk 0 i) + ∑ i, f (blk 1 i)) + ∑ i, f (blk 2 i) := by
  have h : ∑ j : Fin (96 + 96 + 96), f j
      = (∑ i : Fin 96, f (Fin.castAdd 96 (Fin.castAdd 96 i)) + ∑ i : Fin 96, f (Fin.castAdd 96 (Fin.natAdd 96 i)))
        + ∑ i : Fin 96, f (Fin.natAdd (96 + 96) i) := by
    rw [Fin.sum_univ_add, Fin.sum_univ_add]
  refine h.trans ?_
  refine congrArg₂ (· + ·) (congrArg₂ (· + ·) ?_ ?_) ?_
  all_goals
    refine Finset.sum_congr rfl fun i _ => congrArg f (Fin.ext ?_)
    simp only [blk_val, Fin.coe_castAdd, Fin.coe_natAdd]
    omega

/-- The maximum of block r's entries, folded from ⊥. -/
def blockMax (a : Fin 288 → EReal) (r : Fin 3) : EReal :=
  Finset.univ.fold max ⊥ fun i : Fin 96 => a (blk r i)

/-- The running maximum after the first, second and third block. -/
def m0 (a : Fin 288 → EReal) : EReal := max ⊥ (blockMax a 0)
def m1 (a : Fin 288 → EReal) : EReal := max (m0 a) (blockMax a 1)
def m2 (a : Fin 288 → EReal) : EReal := max (m1 a) (blockMax a 2)

/-- Block r's sum of exp (a - m) · k at a given maximum m. -/
def part (a k : Fin 288 → EReal) (r : Fin 3) (m : EReal) : EReal :=
  ∑ i : Fin 96, Ideal.exp (a (blk r i) - m) * k (blk r i)

/-- The running sum after the first, second and third block, rescaled each time the maximum moves. -/
def l0 (a k : Fin 288 → EReal) : EReal := 0 * Ideal.exp (⊥ - m0 a) + part a k 0 (m0 a)
def l1 (a k : Fin 288 → EReal) : EReal := l0 a k * Ideal.exp (m0 a - m1 a) + part a k 1 (m1 a)
def l2 (a k : Fin 288 → EReal) : EReal := l1 a k * Ideal.exp (m1 a - m2 a) + part a k 2 (m2 a)

/-- The running maximum after the third block is the maximum over all rows. -/
theorem m2_eq (a : Fin 288 → EReal) : m2 a = Finset.univ.fold max ⊥ a := by
  unfold m2 m1 m0 blockMax
  apply le_antisymm
  · have hb : ∀ r, (Finset.univ.fold max ⊥ fun i : Fin 96 => a (blk r i)) ≤ Finset.univ.fold max ⊥ a := fun r =>
      (Finset.fold_max_le _).2 ⟨bot_le, fun i _ => (Finset.le_fold_max _).2 (Or.inr ⟨blk r i, Finset.mem_univ _, le_rfl⟩)⟩
    exact max_le (max_le (max_le bot_le (hb 0)) (hb 1)) (hb 2)
  · refine (Finset.fold_max_le _).2 ⟨bot_le, fun j _ => ?_⟩
    obtain ⟨r, i, rfl⟩ := exists_blk j
    have hi : a (blk r i) ≤ Finset.univ.fold max ⊥ fun i : Fin 96 => a (blk r i) :=
      (Finset.le_fold_max _).2 (Or.inr ⟨i, Finset.mem_univ _, le_rfl⟩)
    match r, hi with
    | ⟨0, _⟩, hi => exact le_max_of_le_left (le_max_of_le_left (le_max_of_le_right hi))
    | ⟨1, _⟩, hi => exact le_max_of_le_left (le_max_of_le_right hi)
    | ⟨2, _⟩, hi => exact le_max_of_le_right hi

/-- A finite sum of reals, read in the extended reals. -/
theorem coe_sum {ι : Type} (s : Finset ι) (f : ι → ℝ) : (∑ i ∈ s, (f i : EReal)) = ((∑ i ∈ s, f i : ℝ) : EReal) := by
  classical
  induction s using Finset.induction_on with
  | empty => simp
  | insert x s hx ih => rw [Finset.sum_insert hx, Finset.sum_insert hx, ih, EReal.coe_add]

/-- The larger of two reals, read in the extended reals (the coercion is monotone). -/
theorem coe_max (x y : ℝ) : ((max x y : ℝ) : EReal) = max (x : EReal) (y : EReal) :=
  EReal.coe_strictMono.monotone.map_max

/-- The maximum of a block of reals is a real. -/
theorem blockMax_coe (a : Fin 288 → ℝ) (r : Fin 3) : ∃ x : ℝ, blockMax (fun j => (a j : EReal)) r = x := by
  have htop : blockMax (fun j => (a j : EReal)) r ≠ ⊤ :=
    ((Finset.fold_max_lt _).2 ⟨bot_lt_top, fun i _ => EReal.coe_lt_top _⟩).ne
  have hbot : blockMax (fun j => (a j : EReal)) r ≠ ⊥ :=
    ((Finset.lt_fold_max _).2 (Or.inr ⟨(0 : Fin 96), Finset.mem_univ _, EReal.bot_lt_coe _⟩)).ne'
  lift blockMax (fun j => (a j : EReal)) r to ℝ using ⟨htop, hbot⟩ with x hx
  exact ⟨x, rfl⟩

/-- For real entries the rescaled running sum after the third block is the sum over all rows of
    exp (a - M) · k at the maximum M over all rows. -/
theorem l2_eq (a k : Fin 288 → EReal) (ha : ∀ j, a j ≠ ⊤ ∧ a j ≠ ⊥) (hk : ∀ j, k j ≠ ⊤ ∧ k j ≠ ⊥) :
    l2 a k = 0 + ∑ j, Ideal.exp (a j - Finset.univ.fold max ⊥ a) * k j := by
  rw [← m2_eq]
  lift a to Fin 288 → ℝ using ha
  lift k to Fin 288 → ℝ using hk
  obtain ⟨x0, h0⟩ := blockMax_coe a 0
  obtain ⟨x1, h1⟩ := blockMax_coe a 1
  obtain ⟨x2, h2⟩ := blockMax_coe a 2
  have e0 : m0 (fun j => (a j : EReal)) = (x0 : EReal) := by unfold m0; rw [h0]; exact max_eq_right bot_le
  have e1 : m1 (fun j => (a j : EReal)) = ((max x0 x1 : ℝ) : EReal) := by unfold m1; rw [e0, h1, coe_max x0 x1]
  have e2 : m2 (fun j => (a j : EReal)) = ((max (max x0 x1) x2 : ℝ) : EReal) := by unfold m2; rw [e1, h2, coe_max (max x0 x1) x2]
  unfold l2 l1 l0 part
  rw [e0, e1, e2, sum_blocks]
  simp only [zero_mul, zero_add, ← EReal.coe_sub, Ideal.exp_coe, ← EReal.coe_mul, coe_sum, ← EReal.coe_add]
  refine congrArg _ ?_
  simp only [add_mul, Finset.sum_mul]
  have two : ∀ A K M0 M1 M2 : ℝ,
      Real.exp (A - M0) * K * Real.exp (M0 - M1) * Real.exp (M1 - M2) = Real.exp (A - M2) * K := fun A K M0 M1 M2 => by
    rw [show A - M2 = (A - M0) + (M0 - M1) + (M1 - M2) by ring, Real.exp_add, Real.exp_add]; ring
  have one : ∀ A K M1 M2 : ℝ, Real.exp (A - M1) * K * Real.exp (M1 - M2) = Real.exp (A - M2) * K := fun A K M1 M2 => by
    rw [show A - M2 = (A - M1) + (M1 - M2) by ring, Real.exp_add]; ring
  refine congrArg₂ (· + ·) (congrArg₂ (· + ·) ?_ ?_) rfl
  · exact Finset.sum_congr rfl fun i _ => two _ _ _ _ _
  · exact Finset.sum_congr rfl fun i _ => one _ _ _ _

end Cert.RowBlocks

end
-- ==== Proof.Spec.lean ====
/-
  The column reduction both programs compute, stated once per (image b, column w) on the
  extended reals.

  Over the cropped rows 192 … 479 of image b, at column w, with depth x and mask k:
      a j  = -20 · (x · k + (1 - k) · 100)         at row 192 + j         (rowA)
      M    = max_j a j , folded from -∞                                   (colMaxAt)
      S    = 0 + Σ_j exp (a j - M) · k j                                  (colSumAt)
  The float literals are read as the reals their patterns denote; -∞ is ⊥.  For finite x and k
  every a j is a real, which is what the block-by-block rescaling of the sum needs.
-/
import Idealize.ShloMosaic.PureOps.Ideal
import Idealize.ShloMosaic.Lib.ValueIdx
import proofs.«122003_j69973607186476_1_alg».proof.Proof.RowBlocks

noncomputable section

namespace Cert.Spec

open Idealize.ShloMosaic Idealize.ShloMosaic.ValueIdx

/-- The pattern of -∞ denotes ⊥. -/
theorem ofBits_negInf : Ideal.ofBits .f32 0xFF800000#32 = ⊥ := by
  simp [Ideal.ofBits, Ideal.ieee]

/-- +0.0 denotes 0. -/
theorem ofBits_zero : Ideal.ofBits .f32 0x00000000#32 = 0 := by
  simp [Ideal.ofBits, Ideal.ieee]

/-- -20.0 denotes the real -20. -/
theorem ofBits_neg20 : Ideal.ofBits .f32 0xC1A00000#32 = ((-20 : ℝ) : EReal) := by
  simp [Ideal.ofBits, Ideal.ieee, -EReal.coe_mul]; norm_num

/-- 1.0 denotes the real 1. -/
theorem ofBits_one : Ideal.ofBits .f32 0x3F800000#32 = ((1 : ℝ) : EReal) := by
  simp [Ideal.ofBits, Ideal.ieee, -EReal.coe_mul]; norm_num

/-- 100.0 denotes the real 100. -/
theorem ofBits_100 : Ideal.ofBits .f32 0x42C80000#32 = ((100 : ℝ) : EReal) := by
  simp [Ideal.ofBits, Ideal.ieee, -EReal.coe_mul]; norm_num

/-- The depth images' shape. -/
abbrev Img : Shape := ⟨3, ![64, 480, 640]⟩

/-- The scaled masked depth at one pixel: -20 · (x · k + (1 - k) · 100); a masked-out pixel (k = 0) counts as 100 m. -/
def nd (x k : EReal) : EReal :=
  Ideal.ofBits .f32 0xC1A00000#32 * (x * k + (Ideal.ofBits .f32 0x3F800000#32 - k) * Ideal.ofBits .f32 0x42C80000#32)

/-- For a real depth and a real mask value it is a real. -/
theorem nd_coe (x k : ℝ) : nd (x : EReal) (k : EReal) = ((-20 * (x * k + (1 - k) * 100) : ℝ) : EReal) := by
  unfold nd
  rw [ofBits_neg20, ofBits_one, ofBits_100]
  simp only [← EReal.coe_mul, ← EReal.coe_sub, ← EReal.coe_add]

/-- Cropped row j of image b at column w: row 192 + j of the image. -/
def rowIdx (b : Fin 64) (j : Fin 288) (w : Fin 640) : Img.Idx :=
  ix3 b (⟨192 + j.val, by have := j.isLt; omega⟩ : Fin 480) w

/-- The scaled masked depths down the cropped rows of column (b, w). -/
def rowA (x k : Img.Idx → EReal) (b : Fin 64) (w : Fin 640) : Fin 288 → EReal :=
  fun j => nd (x (rowIdx b j w)) (k (rowIdx b j w))

/-- The mask values down the cropped rows of column (b, w). -/
def rowK (k : Img.Idx → EReal) (b : Fin 64) (w : Fin 640) : Fin 288 → EReal :=
  fun j => k (rowIdx b j w)

/-- The column's maximum, folded from -∞. -/
def colMaxAt (x k : Img.Idx → EReal) (b : Fin 64) (w : Fin 640) : EReal :=
  Finset.univ.fold max ⊥ (rowA x k b w)

/-- The column's sum of exp (a - M) · k at its maximum M, from 0. -/
def colSumAt (x k : Img.Idx → EReal) (b : Fin 64) (w : Fin 640) : EReal :=
  0 + ∑ j, Ideal.exp (rowA x k b w j - colMaxAt x k b w) * rowK k b w j

/-- Finite images give real scaled depths. -/
theorem rowA_real (x k : Img.Idx → EReal) (hx : ∀ i, x i ≠ ⊤ ∧ x i ≠ ⊥) (hk : ∀ i, k i ≠ ⊤ ∧ k i ≠ ⊥)
    (b : Fin 64) (w : Fin 640) (j : Fin 288) : rowA x k b w j ≠ ⊤ ∧ rowA x k b w j ≠ ⊥ := by
  unfold rowA
  obtain ⟨x', hx'⟩ : ∃ r : ℝ, x (rowIdx b j w) = r := by
    lift x (rowIdx b j w) to ℝ using hx _ with r; exact ⟨r, rfl⟩
  obtain ⟨k', hk'⟩ : ∃ r : ℝ, k (rowIdx b j w) = r := by
    lift k (rowIdx b j w) to ℝ using hk _ with r; exact ⟨r, rfl⟩
  rw [hx', hk', nd_coe]
  exact ⟨EReal.coe_ne_top _, EReal.coe_ne_bot _⟩

/-- THE LAW, per column: the running maximum and the rescaled running sum over the three row blocks of 96
    are the column's maximum and sum (Proof/RowBlocks.lean), for finite images. -/
theorem blocks_max (x k : Img.Idx → EReal) (b : Fin 64) (w : Fin 640) :
    Cert.RowBlocks.m2 (rowA x k b w) = colMaxAt x k b w :=
  Cert.RowBlocks.m2_eq _

theorem blocks_sum (x k : Img.Idx → EReal) (hx : ∀ i, x i ≠ ⊤ ∧ x i ≠ ⊥) (hk : ∀ i, k i ≠ ⊤ ∧ k i ≠ ⊥)
    (b : Fin 64) (w : Fin 640) :
    Cert.RowBlocks.l2 (rowA x k b w) (rowK k b w) = colSumAt x k b w :=
  Cert.RowBlocks.l2_eq _ _ (rowA_real x k hx hk b w) (fun j => hk _)

end Cert.Spec

end
-- ==== Proof.Payload.lean ====
/-
  The body's arithmetic at one entry (p, q) of a [16, 640] tile, on the extended reals.

  For a depth block x and mask block k of shape [16, 96, 640]:
    k0_pay4 x k at (p, i, q)  is the scaled masked depth  nd (x (p,i,q)) (k (p,i,q));
    k0_pay5 x k mp at (p, q)  is  max (mp (p,q)) (max_i nd …)           — the new running maximum;
    k0_pay6 x k mp mp' lp at (p, q)  is  lp (p,q) · exp (mp' (p,q) - new) + Σ_i exp (nd … - new) · k (p,i,q)
                                                                        — the new running sum,
  where the new maximum, a [16, 640] tile, is subtracted from every row of the block: cast to [16, 1, 640] and
  broadcast along the 96 rows, it reads at (p, i, q) as its entry (p, q).
-/
import proofs.«122003_j69973607186476_1_alg».proof.Proof.Gen.KernelIdeal.Skeleton
import proofs.«122003_j69973607186476_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.ColValue

open Cert.KernelIdeal Cert.KernelIdeal.Gen

/-- A [16, 640] tile cast to [16, 1, 640] and broadcast along the 96 rows reads at (p, i, q) as its entry (p, q). -/
theorem keepRow_apply {α : Type} (v : S16x640.Idx → α) (h1 : S16x640.ShapeCasts S16x1x640)
    (h2 : S16x1x640.Broadcasts S16x96x640) (p : Fin 16) (i : Fin 96) (q : Fin 640) :
    broadcastTo S16x96x640 (shapeCast S16x1x640 v h1) h2 (ix3 p i q) = v (ix2 p q) := by
  rw [broadcastTo_apply _ h2 (ix3 p i q) (ix3 p (0 : Fin 1) q) (fun a => by
    match a with
    | ⟨0, _⟩ => show p.val = if (16 : Nat) = 1 then 0 else p.val; rw [if_neg (by decide)]
    | ⟨1, _⟩ => show 0 = if (1 : Nat) = 1 then 0 else i.val; rw [if_pos rfl]
    | ⟨2, _⟩ => show q.val = if (640 : Nat) = 1 then 0 else q.val; rw [if_neg (by decide)])]
  refine shapeCast_apply v h1 _ (ix2 p q) ?_
  rw [Shape.rowMajor_val_two, Shape.rowMajor_val_three]
  show p.val * 640 + q.val = (p.val * 1 + 0) * 640 + q.val
  omega

/-- Row i of column (p, q) of a [16, 96, 640] block, as the reduction over the row axis names it. -/
theorem lift_row (h : S16x96x640.Reduces [1] S16x640) (p : Fin 16) (i : Fin 96) (q : Fin 640) :
    h.lift (ix2 p q) i = (ix3 p i q : S16x96x640.Idx) :=
  funext fun a => Fin.ext (by match a with | ⟨0, _⟩ => rfl | ⟨1, _⟩ => rfl | ⟨2, _⟩ => rfl)

/-- A maximum over the 96 rows of a block from -∞, read at column (p, q): the fold of max over the rows. -/
theorem maxRows_apply (src : FVec Ideal S16x96x640 .f32) (h : S16x96x640.Reduces [1] S16x640) (hφ : FKind.Formats .f32)
    (hacc : (0xFF800000#32 : BitVec 32) = 0xFF800000#32) (p : Fin 16) (q : Fin 640) :
    multiReduction .maximumf [1] S16x640 src 0xFF800000#32 h hφ hacc (ix2 p q)
      = Finset.univ.fold max ⊥ fun i : Fin 96 => src (ix3 p i q) := by
  refine (Ideal.multiReduction_maximumf_single src 0xFF800000#32 h hφ hacc (ix2 p q)).trans ?_
  refine Eq.trans (b := Finset.univ.fold max (Ideal.ofBits .f32 0xFF800000#32) fun i : Fin 96 => src (ix3 p i q)) ?_
    (by rw [Cert.Spec.ofBits_negInf])
  exact Finset.fold_congr fun i _ => congrArg src (lift_row h p i q)

/-- A sum over the 96 rows of a block from 0, read at column (p, q). -/
theorem sumRows_apply (src : FVec Ideal S16x96x640 .f32) (h : S16x96x640.Reduces [1] S16x640) (hφ : FKind.Formats .f32)
    (hacc : (0x00000000#32 : BitVec 32) = 0x00000000#32) (p : Fin 16) (q : Fin 640) :
    multiReduction .add [1] S16x640 src 0x00000000#32 h hφ hacc (ix2 p q) = ∑ i : Fin 96, src (ix3 p i q) := by
  refine (Ideal.multiReduction_add_single src 0x00000000#32 h hφ hacc (ix2 p q)).trans ?_
  exact Finset.sum_congr rfl fun i _ => congrArg src (lift_row h p i q)

/-- The scaled masked depth at a block pixel. -/
theorem pay4_apply (x k : Vec Ideal S16x96x640 .f32) (p : Fin 16) (i : Fin 96) (q : Fin 640) :
    k0_pay4 (F := Ideal) x k (ix3 p i q) = Cert.Spec.nd (x (ix3 p i q)) (k (ix3 p i q)) := rfl

/-- The new running maximum at (p, q): the larger of the previous one and the block's column maximum. -/
theorem pay5_apply (x k : Vec Ideal S16x96x640 .f32) (mp : Vec Ideal S16x640 .f32) (p : Fin 16) (q : Fin 640) :
    k0_pay5 (F := Ideal) x k mp (ix2 p q)
      = max (mp (ix2 p q)) (Finset.univ.fold max ⊥ fun i : Fin 96 => Cert.Spec.nd (x (ix3 p i q)) (k (ix3 p i q))) := by
  unfold k0_pay5
  dsimp only
  refine (maximumf_apply _ _ (ix2 p q)).trans (congrArg (max _) ?_)
  refine (maxRows_apply _ _ _ _ p q).trans ?_
  exact Finset.fold_congr fun i _ => pay4_apply x k p i q

/-- The new running sum at (p, q): the previous sum rescaled by exp (previous maximum - new maximum), plus the
    block's column sum of exp (depth - new maximum) · mask. -/
theorem pay6_apply (x k : Vec Ideal S16x96x640 .f32) (mp mp' lp : Vec Ideal S16x640 .f32) (p : Fin 16) (q : Fin 640) :
    k0_pay6 (F := Ideal) x k mp mp' lp (ix2 p q)
      = lp (ix2 p q) * Ideal.exp (mp' (ix2 p q) - k0_pay5 (F := Ideal) x k mp (ix2 p q))
        + ∑ i : Fin 96, Ideal.exp (Cert.Spec.nd (x (ix3 p i q)) (k (ix3 p i q)) - k0_pay5 (F := Ideal) x k mp (ix2 p q))
            * k (ix3 p i q) := by
  unfold k0_pay6
  dsimp only
  rw [shapeCast_self]
  refine (addf_apply _ _ (ix2 p q)).trans (congrArg₂ (· + ·) rfl ?_)
  refine (sumRows_apply _ _ _ _ p q).trans ?_
  refine Finset.sum_congr rfl fun i _ => ?_
  show Ideal.exp (k0_pay4 (F := Ideal) x k (ix3 p i q) - broadcastTo S16x96x640 (shapeCast S16x1x640 (k0_pay5 (F := Ideal) x k mp) _) _ (ix3 p i q)) * k (ix3 p i q) = _
  rw [keepRow_apply, pay4_apply]

/-- The cast of a tile to its own shape is the tile. -/
theorem pay1_eq (v : FVec Ideal S16x640 .f32) : k0_pay1 (F := Ideal) v = v := by
  unfold k0_pay1; exact shapeCast_self _ _

/-- The reset values: -∞ for the running maximum, 0 for the running sum. -/
theorem pay2_apply (j : S16x640.Idx) : k0_pay2 (F := Ideal) j = ⊥ := by
  show shapeCast S16x640 (broadcast S16x640 (Scalar.ofBits (F := Ideal) .f32 0xFF800000#32)) shapeCasts_S16x640_S16x640 j = ⊥
  rw [shapeCast_self]; exact Cert.Spec.ofBits_negInf
theorem pay3_apply (j : S16x640.Idx) : k0_pay3 (F := Ideal) j = 0 := by
  show shapeCast S16x640 (broadcast S16x640 (Scalar.ofBits (F := Ideal) .f32 0x00000000#32)) shapeCasts_S16x640_S16x640 j = 0
  rw [shapeCast_self]; exact Cert.Spec.ofBits_zero

/-! ## One row block's update of a column's running maximum and sum

With a the column's 288 scaled depths and kk its 288 mask values, the block's rows being rows blk r i of the column. -/

open Cert.RowBlocks in
/-- The running maximum M becomes max M (the block's maximum). -/
theorem step_max (x k : Vec Ideal S16x96x640 .f32) (mp : Vec Ideal S16x640 .f32) (p : Fin 16) (q : Fin 640)
    (a : Fin 288 → EReal) (r : Fin 3) (M : EReal)
    (hx : ∀ i, Cert.Spec.nd (x (ix3 p i q)) (k (ix3 p i q)) = a (blk r i)) (hm : mp (ix2 p q) = M) :
    k0_pay1 (F := Ideal) (k0_pay5 (F := Ideal) x k mp) (ix2 p q) = max M (blockMax a r) := by
  rw [pay1_eq, pay5_apply, hm]
  exact congrArg (max M) (Finset.fold_congr fun i _ => hx i)

open Cert.RowBlocks in
/-- The running sum L becomes L · exp (M - M') + the block's sum at the new maximum M'. -/
theorem step_sum (x k : Vec Ideal S16x96x640 .f32) (mp lp : Vec Ideal S16x640 .f32) (p : Fin 16) (q : Fin 640)
    (a kk : Fin 288 → EReal) (r : Fin 3) (M L : EReal)
    (hx : ∀ i, Cert.Spec.nd (x (ix3 p i q)) (k (ix3 p i q)) = a (blk r i)) (hk : ∀ i, k (ix3 p i q) = kk (blk r i))
    (hm : mp (ix2 p q) = M) (hl : lp (ix2 p q) = L) :
    k0_pay6 (F := Ideal) x k mp mp lp (ix2 p q)
      = L * Ideal.exp (M - max M (blockMax a r)) + part a kk r (max M (blockMax a r)) := by
  have h5 : k0_pay5 (F := Ideal) x k mp (ix2 p q) = max M (blockMax a r) := by
    rw [pay5_apply, hm]; exact congrArg (max M) (Finset.fold_congr fun i _ => hx i)
  rw [pay6_apply, h5, hm, hl]
  unfold part
  exact congrArg (_ + ·) (Finset.sum_congr rfl fun i _ => by rw [hx i, hk i])

end Cert.KernelIdeal.ColValue

end
-- ==== Proof.Column.lean ====
/-
  One batch tile of 16 images, through its three row blocks.

  Grid point t handles images 16 · (t / 3) … + 15 and row block t % 3 (rows 192 + 96 · (t % 3) … of the image).
  Entry (p, q) of the carried scratch tiles therefore follows column (b, q), b = 16 · (t / 3) + p, of the two
  depth arrays: after row block 0 it holds (m0, l0) of that column's 288 scaled depths, after row block 1
  (m1, l1), and at row block 2 the outputs' staging tiles receive (m2, l2)  (Proof/RowBlocks.lean's names).
-/
import proofs.«122003_j69973607186476_1_alg».proof.Proof.Gen.KernelIdeal.Frame
import proofs.«122003_j69973607186476_1_alg».proof.Proof.Pieces
import proofs.«122003_j69973607186476_1_alg».proof.Proof.Payload
import proofs.«122003_j69973607186476_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.ColValue

open Cert.KernelIdeal Cert.KernelIdeal.Gen Cert.RowBlocks Cert.Spec

variable (m : (ℓ : Loc nD τ sig) → Buf (Elt Ideal) ℓ)

/-- The depth and the mask array as the region finds them. -/
abbrev Xa (c : Dev nD) : Img.Idx → EReal := V m c main_arg0
abbrev Ka (c : Dev nD) : Img.Idx → EReal := V m c main_arg1

/-- The depth block and the mask block of point t. -/
abbrev xb (c : Dev nD) (t : Fin cfg0.N) : Vec Ideal S16x96x640 .f32 := iblk m c 0 t
abbrev kb (c : Dev nD) (t : Fin cfg0.N) : Vec Ideal S16x96x640 .f32 := iblk m c 1 t

/-- Point t reads image tile t / 3 and row block t % 3 + 2 of 96 rows (the crop starts at row 192 = 2 · 96). -/
theorem idx_in0 : ∀ t : Fin cfg0.N, win0_0.index t 0 = t.val / 3 ∧ win0_0.index t 1 = t.val % 3 + 2 ∧ win0_0.index t 2 = 0 :=
  (by decide +kernel : ∀ t : Fin grid0.N, win0_0.index t 0 = t.val / 3 ∧ win0_0.index t 1 = t.val % 3 + 2 ∧ win0_0.index t 2 = 0)
theorem idx_in1 : ∀ t : Fin cfg0.N, win0_1.index t 0 = t.val / 3 ∧ win0_1.index t 1 = t.val % 3 + 2 ∧ win0_1.index t 2 = 0 :=
  (by decide +kernel : ∀ t : Fin grid0.N, win0_1.index t 0 = t.val / 3 ∧ win0_1.index t 1 = t.val % 3 + 2 ∧ win0_1.index t 2 = 0)

/-- Pixel (p, i, q) of point t's depth block is row blk r i of column (b, q) of the depth array. -/
theorem xb_apply (c : Dev nD) (t : Fin cfg0.N) (b : Fin 64) (r : Fin 3) (p : Fin 16) (i : Fin 96) (q : Fin 640)
    (hb : b.val = 16 * (t.val / 3) + p.val) (hr : r.val = t.val % 3) :
    xb m c t (ix3 p i q) = Xa m c (rowIdx b (blk r i) q) := by
  show ((cfg0.win 0).blk t).view.read (Elt Ideal) (V m c main_arg0) (ix3 p i q) = V m c main_arg0 _
  rw [View.read_apply]
  show V m c main_arg0 (((cfg0.win 0).blk t).view.emb (ix3 p i q)) = V m c main_arg0 _
  refine congrArg _ (funext fun a => Fin.ext ?_)
  obtain ⟨e0, e1, e2⟩ := idx_in0 t
  match a with
  | ⟨0, _⟩ => show win0_0.index t 0 * 16 + 1 * p.val = b.val; rw [e0, hb]; omega
  | ⟨1, _⟩ => show win0_0.index t 1 * 96 + 1 * i.val = 192 + (i.val + 96 * r.val); rw [e1, hr]; omega
  | ⟨2, _⟩ => show win0_0.index t 2 * 640 + 1 * q.val = q.val; rw [e2]; omega

/-- The same for the mask. -/
theorem kb_apply (c : Dev nD) (t : Fin cfg0.N) (b : Fin 64) (r : Fin 3) (p : Fin 16) (i : Fin 96) (q : Fin 640)
    (hb : b.val = 16 * (t.val / 3) + p.val) (hr : r.val = t.val % 3) :
    kb m c t (ix3 p i q) = Ka m c (rowIdx b (blk r i) q) := by
  show ((cfg0.win 1).blk t).view.read (Elt Ideal) (V m c main_arg1) (ix3 p i q) = V m c main_arg1 _
  rw [View.read_apply]
  show V m c main_arg1 (((cfg0.win 1).blk t).view.emb (ix3 p i q)) = V m c main_arg1 _
  refine congrArg _ (funext fun a => Fin.ext ?_)
  obtain ⟨e0, e1, e2⟩ := idx_in1 t
  match a with
  | ⟨0, _⟩ => show win0_1.index t 0 * 16 + 1 * p.val = b.val; rw [e0, hb]; omega
  | ⟨1, _⟩ => show win0_1.index t 1 * 96 + 1 * i.val = 192 + (i.val + 96 * r.val); rw [e1, hr]; omega
  | ⟨2, _⟩ => show win0_1.index t 2 * 640 + 1 * q.val = q.val; rw [e2]; omega

/-- So the block's scaled depths down column (p, q) are rows blk r · of column (b, q)'s. -/
theorem nd_block (c : Dev nD) (t : Fin cfg0.N) (b : Fin 64) (r : Fin 3) (p : Fin 16) (q : Fin 640)
    (hb : b.val = 16 * (t.val / 3) + p.val) (hr : r.val = t.val % 3) (i : Fin 96) :
    nd (xb m c t (ix3 p i q)) (kb m c t (ix3 p i q)) = rowA (Xa m c) (Ka m c) b q (blk r i) := by
  rw [xb_apply m c t b r p i q hb hr, kb_apply m c t b r p i q hb hr]; rfl

/-! ## What each kind of point leaves, as the payloads of its blocks and of what the point before left -/

theorem scratch_first (c : Dev nD) (t : Fin cfg0.N) (h0 : t.val % 3 = 0) (h1 : ¬t.val % 3 = 2) :
    (outsAt0 m c t.val t.isLt).2.2.1 = k0_pay1 (F := Ideal) (k0_pay5 (F := Ideal) (xb m c t) (kb m c t) (k0_pay2 (F := Ideal)))
    ∧ (outsAt0 m c t.val t.isLt).2.2.2
        = k0_pay6 (F := Ideal) (xb m c t) (kb m c t) (k0_pay2 (F := Ideal)) (k0_pay2 (F := Ideal)) (k0_pay3 (F := Ideal)) := by
  rw [outsAt0_A m c t h0 h1]
  dsimp only
  exact ⟨scratchMax_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t),
    scratchSum_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)⟩

theorem scratch_middle (c : Dev nD) (t : Fin cfg0.N) (h0 : ¬t.val % 3 = 0) (h1 : ¬t.val % 3 = 2) :
    (outsAt0 m c t.val t.isLt).2.2.1
        = k0_pay1 (F := Ideal) (k0_pay5 (F := Ideal) (xb m c t) (kb m c t) (outsAt0 m c (t.val - 1) (Nat.lt_of_le_of_lt (Nat.sub_le _ _) t.isLt)).2.2.1)
    ∧ (outsAt0 m c t.val t.isLt).2.2.2
        = k0_pay6 (F := Ideal) (xb m c t) (kb m c t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_B m c t h0 h1]
  dsimp only
  exact ⟨scratchMax_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    scratchSum_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

theorem out_last (c : Dev nD) (t : Fin cfg0.N) (h0 : ¬t.val % 3 = 0) (h1 : t.val % 3 = 2) :
    (outsAt0 m c t.val t.isLt).1
        = k0_pay1 (F := Ideal) (k0_pay5 (F := Ideal) (xb m c t) (kb m c t) (outsAt0 m c (t.val - 1) (Nat.lt_of_le_of_lt (Nat.sub_le _ _) t.isLt)).2.2.1)
    ∧ (outsAt0 m c t.val t.isLt).2.1
        = k0_pay6 (F := Ideal) (xb m c t) (kb m c t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
  rw [outsAt0_C m c t h0 h1]
  dsimp only
  exact ⟨outMax_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2,
    outSum_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The chain over one tile's three points n, n + 1, n + 2 (n a multiple of 3), at entry (p, q), column (b, q) -/

/-- After row block 0: the running maximum and sum from -∞ and 0. -/
theorem after_block0 (c : Dev nD) (n : ℕ) (hn : n < cfg0.N) (h3 : n % 3 = 0) (p : Fin 16) (q : Fin 640) (b : Fin 64)
    (hb : b.val = 16 * (n / 3) + p.val) :
    (outsAt0 m c n hn).2.2.1 (ix2 p q) = m0 (rowA (Xa m c) (Ka m c) b q)
    ∧ (outsAt0 m c n hn).2.2.2 (ix2 p q) = l0 (rowA (Xa m c) (Ka m c) b q) (rowK (Ka m c) b q) := by
  obtain ⟨e1, e2⟩ := scratch_first m c ⟨n, hn⟩ h3 (by show ¬n % 3 = 2; omega)
  have hr : (0 : Fin 3).val = (⟨n, hn⟩ : Fin cfg0.N).val % 3 := h3.symm
  constructor
  · refine (congrFun e1 (ix2 p q)).trans ?_
    exact step_max _ _ _ p q _ 0 ⊥ (nd_block m c ⟨n, hn⟩ b 0 p q hb hr) (pay2_apply _)
  · refine (congrFun e2 (ix2 p q)).trans ?_
    refine (step_sum _ _ _ _ p q (rowA (Xa m c) (Ka m c) b q) (rowK (Ka m c) b q) 0 ⊥ 0
      (nd_block m c ⟨n, hn⟩ b 0 p q hb hr) (fun i => kb_apply m c ⟨n, hn⟩ b 0 p i q hb hr) (pay2_apply _) (pay3_apply _)).trans ?_
    rfl

/-- After row block 1. -/
theorem after_block1 (c : Dev nD) (n : ℕ) (hn : n + 1 < cfg0.N) (h3 : n % 3 = 0) (p : Fin 16) (q : Fin 640) (b : Fin 64)
    (hb : b.val = 16 * (n / 3) + p.val) :
    (outsAt0 m c (n + 1) hn).2.2.1 (ix2 p q) = m1 (rowA (Xa m c) (Ka m c) b q)
    ∧ (outsAt0 m c (n + 1) hn).2.2.2 (ix2 p q) = l1 (rowA (Xa m c) (Ka m c) b q) (rowK (Ka m c) b q) := by
  obtain ⟨e1, e2⟩ := scratch_middle m c ⟨n + 1, hn⟩ (by show ¬(n + 1) % 3 = 0; omega) (by show ¬(n + 1) % 3 = 2; omega)
  obtain ⟨p1, p2⟩ := after_block0 m c n (by omega) h3 p q b hb
  have hb' : b.val = 16 * ((⟨n + 1, hn⟩ : Fin cfg0.N).val / 3) + p.val := by show b.val = 16 * ((n + 1) / 3) + p.val; omega
  have hr : (1 : Fin 3).val = (⟨n + 1, hn⟩ : Fin cfg0.N).val % 3 := by show 1 = (n + 1) % 3; omega
  constructor
  · refine (congrFun e1 (ix2 p q)).trans ?_
    exact step_max _ _ _ p q _ 1 _ (nd_block m c ⟨n + 1, hn⟩ b 1 p q hb' hr) p1
  · refine (congrFun e2 (ix2 p q)).trans ?_
    exact step_sum _ _ _ _ p q (rowA (Xa m c) (Ka m c) b q) (rowK (Ka m c) b q) 1 _ _
      (nd_block m c ⟨n + 1, hn⟩ b 1 p q hb' hr) (fun i => kb_apply m c ⟨n + 1, hn⟩ b 1 p i q hb' hr) p1 p2

/-- At row block 2 the outputs' staging tiles receive the column's maximum and sum over the three blocks. -/
theorem out_block2 (c : Dev nD) (n : ℕ) (hn : n + 2 < cfg0.N) (h3 : n % 3 = 0) (p : Fin 16) (q : Fin 640) (b : Fin 64)
    (hb : b.val = 16 * (n / 3) + p.val) :
    (outsAt0 m c (n + 2) hn).1 (ix2 p q) = m2 (rowA (Xa m c) (Ka m c) b q)
    ∧ (outsAt0 m c (n + 2) hn).2.1 (ix2 p q) = l2 (rowA (Xa m c) (Ka m c) b q) (rowK (Ka m c) b q) := by
  obtain ⟨e1, e2⟩ := out_last m c ⟨n + 2, hn⟩ (by show ¬(n + 2) % 3 = 0; omega) (by show (n + 2) % 3 = 2; omega)
  obtain ⟨p1, p2⟩ := after_block1 m c n (by omega) h3 p q b hb
  have hb' : b.val = 16 * ((⟨n + 2, hn⟩ : Fin cfg0.N).val / 3) + p.val := by show b.val = 16 * ((n + 2) / 3) + p.val; omega
  have hr : (2 : Fin 3).val = (⟨n + 2, hn⟩ : Fin cfg0.N).val % 3 := by show 2 = (n + 2) % 3; omega
  constructor
  · refine (congrFun e1 (ix2 p q)).trans ?_
    exact step_max _ _ _ p q _ 2 _ (nd_block m c ⟨n + 2, hn⟩ b 2 p q hb' hr) p1
  · refine (congrFun e2 (ix2 p q)).trans ?_
    exact step_sum _ _ _ _ p q (rowA (Xa m c) (Ka m c) b q) (rowK (Ka m c) b q) 2 _ _
      (nd_block m c ⟨n + 2, hn⟩ b 2 p q hb' hr) (fun i => kb_apply m c ⟨n + 2, hn⟩ b 2 p i q hb' hr) p1 p2

/-- At any point of the last row block: entry (p, q) of the two outputs' staging tiles is the running maximum and
    the rescaled running sum of column (b, q) over its three row blocks, b = 16 · (t / 3) + p. -/
theorem out_entries (c : Dev nD) (t : Fin cfg0.N) (ht : t.val % 3 = 2) (p : Fin 16) (q : Fin 640) (b : Fin 64)
    (hb : b.val = 16 * (t.val / 3) + p.val) :
    (outsAt0 m c t.val t.isLt).1 (ix2 p q) = m2 (rowA (Xa m c) (Ka m c) b q)
    ∧ (outsAt0 m c t.val t.isLt).2.1 (ix2 p q) = l2 (rowA (Xa m c) (Ka m c) b q) (rowK (Ka m c) b q) := by
  obtain ⟨tv, htv⟩ := t
  obtain ⟨n, rfl⟩ : ∃ n, tv = n + 2 := ⟨tv - 2, by have : tv % 3 = 2 := ht; omega⟩
  exact out_block2 m c n htv (by have : (n + 2) % 3 = 2 := ht; omega) p q b (by
    have : b.val = 16 * ((n + 2) / 3) + p.val := hb
    have : (n + 2) % 3 = 2 := ht
    omega)

end Cert.KernelIdeal.ColValue

end
-- ==== Proof.Arrays.lean ====
/-
  The two output arrays after the region.

  Output block t / 3 (16 images, all 640 columns) is written back once, at the tile's last row block
  (points t with t % 3 = 2); the four tiles' blocks cover the [64, 640] arrays.  What is written at entry (p, q)
  of block t / 3 is the running maximum / rescaled running sum of column (16 · (t / 3) + p, q) over its three row
  blocks, which is that column's maximum / sum over all 288 cropped rows — for the sum, because the images are finite.
  So the first output array is the column maxima and the second the column sums of the specification.
-/
import proofs.«122003_j69973607186476_1_alg».proof.Proof.Column

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ColValue

open Cert.KernelIdeal Cert.KernelIdeal.Gen Cert.RowBlocks Cert.Spec

variable (m : (ℓ : Loc nD τ sig) → Buf (Elt Ideal) ℓ)

/-- The column maxima and the column sums of the two depth arrays, as [64, 640] arrays. -/
def maxArr (c : Dev nD) : S64x640.Idx → EReal :=
  fun j => colMaxAt (Xa m c) (Ka m c) (⟨(j 0).val, (j 0).isLt⟩ : Fin 64) (⟨(j 1).val, (j 1).isLt⟩ : Fin 640)
def sumArr (c : Dev nD) : S64x640.Idx → EReal :=
  fun j => colSumAt (Xa m c) (Ka m c) (⟨(j 0).val, (j 0).isLt⟩ : Fin 64) (⟨(j 1).val, (j 1).isLt⟩ : Fin 640)

/-- Point t writes output block t / 3 (all columns). -/
theorem idx_out2 : ∀ t : Fin cfg0.N, win0_2.index t (0 : Fin 2) = t.val / 3 ∧ win0_2.index t (1 : Fin 2) = 0 :=
  (by decide +kernel : ∀ t : Fin grid0.N, win0_2.index t (0 : Fin 2) = t.val / 3 ∧ win0_2.index t (1 : Fin 2) = 0)
theorem idx_out3 : ∀ t : Fin cfg0.N, win0_3.index t (0 : Fin 2) = t.val / 3 ∧ win0_3.index t (1 : Fin 2) = 0 :=
  (by decide +kernel : ∀ t : Fin grid0.N, win0_3.index t (0 : Fin 2) = t.val / 3 ∧ win0_3.index t (1 : Fin 2) = 0)

/-! ## What a write-back writes is the block of the column maxima / sums -/

theorem flushed_max (c : Dev nD) (t : Fin cfg0.N) (hf : (cfg0.win 2).flush t = true) :
    (dats m 0 c).flushed 2 t = ((cfg0.win 2).blk t).view.read (Elt Ideal) (maxArr m c) := by
  have ht : t.val % 3 = 2 := (flush0_2 t).mp hf
  have hN : t.val < 12 := lt_of_lt_of_eq t.isLt (show cfg0.N = 12 from N_0)
  obtain ⟨e0, e1⟩ := idx_out2 t
  show (cfg0.win 2).cut (grid0.coords t) ((dats m 0 c).after 2 t) = _
  rw [after0_2]
  funext y
  have hy0 : (y 0).val < 16 := (y 0).isLt
  have hy1 : (y 1).val < 640 := (y 1).isLt
  have hj : (cfg0.win 2).xinj (grid0.coords t) y = ix2 (⟨(y 0).val, hy0⟩ : Fin 16) (⟨(y 1).val, hy1⟩ : Fin 640) :=
    funext fun a => Fin.ext (by match a with | ⟨0, _⟩ => rfl | ⟨1, _⟩ => rfl)
  have hR : maxArr m c (((cfg0.win 2).blk t).view.emb y)
      = colMaxAt (Xa m c) (Ka m c) (⟨16 * (t.val / 3) + (y 0).val, by omega⟩ : Fin 64) (⟨(y 1).val, hy1⟩ : Fin 640) := by
    unfold maxArr
    refine congrArg₂ (colMaxAt (Xa m c) (Ka m c)) (Fin.ext ?_) (Fin.ext ?_)
    · show win0_2.index t (0 : Fin 2) * 16 + 1 * (y 0).val = 16 * (t.val / 3) + (y 0).val; rw [e0]; omega
    · show win0_2.index t (1 : Fin 2) * 640 + 1 * (y 1).val = (y 1).val; rw [e1]; omega
  rw [View.read_apply, hR]
  show (outsAt0 m c t.val t.isLt).1 ((cfg0.win 2).xinj (grid0.coords t) y) = _
  rw [hj, (out_entries m c t ht ⟨(y 0).val, hy0⟩ ⟨(y 1).val, hy1⟩ ⟨16 * (t.val / 3) + (y 0).val, by omega⟩ rfl).1]
  rw [cast_eq]
  exact blocks_max (Xa m c) (Ka m c) _ _

theorem flushed_sum (c : Dev nD) (hx : ∀ i, Xa m c i ≠ ⊤ ∧ Xa m c i ≠ ⊥) (hk : ∀ i, Ka m c i ≠ ⊤ ∧ Ka m c i ≠ ⊥) (t : Fin cfg0.N) (hf : (cfg0.win 3).flush t = true) :
    (dats m 0 c).flushed 3 t = ((cfg0.win 3).blk t).view.read (Elt Ideal) (sumArr m c) := by
  have ht : t.val % 3 = 2 := (flush0_3 t).mp hf
  have hN : t.val < 12 := lt_of_lt_of_eq t.isLt (show cfg0.N = 12 from N_0)
  obtain ⟨e0, e1⟩ := idx_out3 t
  show (cfg0.win 3).cut (grid0.coords t) ((dats m 0 c).after 3 t) = _
  rw [after0_3]
  funext y
  have hy0 : (y 0).val < 16 := (y 0).isLt
  have hy1 : (y 1).val < 640 := (y 1).isLt
  have hj : (cfg0.win 3).xinj (grid0.coords t) y = ix2 (⟨(y 0).val, hy0⟩ : Fin 16) (⟨(y 1).val, hy1⟩ : Fin 640) :=
    funext fun a => Fin.ext (by match a with | ⟨0, _⟩ => rfl | ⟨1, _⟩ => rfl)
  have hR : sumArr m c (((cfg0.win 3).blk t).view.emb y)
      = colSumAt (Xa m c) (Ka m c) (⟨16 * (t.val / 3) + (y 0).val, by omega⟩ : Fin 64) (⟨(y 1).val, hy1⟩ : Fin 640) := by
    unfold sumArr
    refine congrArg₂ (colSumAt (Xa m c) (Ka m c)) (Fin.ext ?_) (Fin.ext ?_)
    · show win0_3.index t (0 : Fin 2) * 16 + 1 * (y 0).val = 16 * (t.val / 3) + (y 0).val; rw [e0]; omega
    · show win0_3.index t (1 : Fin 2) * 640 + 1 * (y 1).val = (y 1).val; rw [e1]; omega
  rw [View.read_apply, hR]
  show (outsAt0 m c t.val t.isLt).2.1 ((cfg0.win 3).xinj (grid0.coords t) y) = _
  rw [hj, (out_entries m c t ht ⟨(y 0).val, hy0⟩ ⟨(y 1).val, hy1⟩ ⟨16 * (t.val / 3) + (y 0).val, by omega⟩ rfl).2]
  rw [cast_eq]
  exact blocks_sum (Xa m c) (Ka m c) hx hk _ _

/-! ## The write-backs cover the arrays -/

theorem mem_blk_2 (t : Fin cfg0.N) (i : S64x640.Idx) :
    i ∈ ((cfg0.win 2).blk t).view.set
      ↔ ∀ a : Fin 2, win0_2.index t a * S16x640.size a ≤ (i a).val ∧ (i a).val < win0_2.index t a * S16x640.size a + S16x640.size a := by
  show i ∈ ((View.whole main_v0_0).slice (win0_2.rect t)).set ↔ _
  rw [View.set_slice_whole, Rect.mem_set_unit]
  exact Iff.rfl

/-- Every entry (i0, i1) of the array is written back by point 3 · (i0 / 16) + 2, the last row block of its tile. -/
theorem cover_max (i : S64x640.Idx) : ∃ t : Fin cfg0.N, (cfg0.win 2).flush t = true ∧ i ∈ ((cfg0.win 2).blk t).view.set := by
  have hi0 : (i 0).val < 64 := (i 0).isLt
  have hi1 : (i 1).val < 640 := (i 1).isLt
  have hlt : 3 * ((i 0).val / 16) + 2 < cfg0.N := by rw [show cfg0.N = 12 from N_0]; omega
  obtain ⟨e0, e1⟩ := idx_out2 ⟨3 * ((i 0).val / 16) + 2, hlt⟩
  have e0' : win0_2.index ⟨3 * ((i 0).val / 16) + 2, hlt⟩ (0 : Fin 2) = (3 * ((i 0).val / 16) + 2) / 3 := e0
  refine ⟨⟨3 * ((i 0).val / 16) + 2, hlt⟩, (flush0_2 _).mpr (by show (3 * ((i 0).val / 16) + 2) % 3 = 2; omega), ?_⟩
  rw [mem_blk_2]
  intro a
  match a with
  | ⟨0, _⟩ =>
    show win0_2.index ⟨3 * ((i 0).val / 16) + 2, hlt⟩ (0 : Fin 2) * 16 ≤ (i 0).val
      ∧ (i 0).val < win0_2.index ⟨3 * ((i 0).val / 16) + 2, hlt⟩ (0 : Fin 2) * 16 + 16
    rw [e0']; omega
  | ⟨1, _⟩ =>
    show win0_2.index ⟨3 * ((i 0).val / 16) + 2, hlt⟩ (1 : Fin 2) * 640 ≤ (i 1).val
      ∧ (i 1).val < win0_2.index ⟨3 * ((i 0).val / 16) + 2, hlt⟩ (1 : Fin 2) * 640 + 640
    rw [e1]; omega

theorem mem_blk_3 (t : Fin cfg0.N) (i : S64x640.Idx) :
    i ∈ ((cfg0.win 3).blk t).view.set
      ↔ ∀ a : Fin 2, win0_3.index t a * S16x640.size a ≤ (i a).val ∧ (i a).val < win0_3.index t a * S16x640.size a + S16x640.size a := by
  show i ∈ ((View.whole main_v0_1).slice (win0_3.rect t)).set ↔ _
  rw [View.set_slice_whole, Rect.mem_set_unit]
  exact Iff.rfl

/-- Every entry (i0, i1) of the array is written back by point 3 · (i0 / 16) + 2, the last row block of its tile. -/
theorem cover_sum (i : S64x640.Idx) : ∃ t : Fin cfg0.N, (cfg0.win 3).flush t = true ∧ i ∈ ((cfg0.win 3).blk t).view.set := by
  have hi0 : (i 0).val < 64 := (i 0).isLt
  have hi1 : (i 1).val < 640 := (i 1).isLt
  have hlt : 3 * ((i 0).val / 16) + 2 < cfg0.N := by rw [show cfg0.N = 12 from N_0]; omega
  obtain ⟨e0, e1⟩ := idx_out3 ⟨3 * ((i 0).val / 16) + 2, hlt⟩
  have e0' : win0_3.index ⟨3 * ((i 0).val / 16) + 2, hlt⟩ (0 : Fin 2) = (3 * ((i 0).val / 16) + 2) / 3 := e0
  refine ⟨⟨3 * ((i 0).val / 16) + 2, hlt⟩, (flush0_3 _).mpr (by show (3 * ((i 0).val / 16) + 2) % 3 = 2; omega), ?_⟩
  rw [mem_blk_3]
  intro a
  match a with
  | ⟨0, _⟩ =>
    show win0_3.index ⟨3 * ((i 0).val / 16) + 2, hlt⟩ (0 : Fin 2) * 16 ≤ (i 0).val
      ∧ (i 0).val < win0_3.index ⟨3 * ((i 0).val / 16) + 2, hlt⟩ (0 : Fin 2) * 16 + 16
    rw [e0']; omega
  | ⟨1, _⟩ =>
    show win0_3.index ⟨3 * ((i 0).val / 16) + 2, hlt⟩ (1 : Fin 2) * 640 ≤ (i 1).val
      ∧ (i 1).val < win0_3.index ⟨3 * ((i 0).val / 16) + 2, hlt⟩ (1 : Fin 2) * 640 + 640
    rw [e1]; omega

/-! ## The arrays after the region -/

theorem final_max (c : Dev nD) : (dats m 0 c).arrAt 2 cfg0.N = maxArr m c :=
  (dats m 0 c).arrAt_eq_of_cover 2 (maxArr m c) (flushed_max m c) cover_max

theorem final_sum (c : Dev nD) (hx : ∀ i, Xa m c i ≠ ⊤ ∧ Xa m c i ≠ ⊥) (hk : ∀ i, Ka m c i ≠ ⊤ ∧ Ka m c i ≠ ⊥) :
    (dats m 0 c).arrAt 3 cfg0.N = sumArr m c :=
  (dats m 0 c).arrAt_eq_of_cover 3 (sumArr m c) (flushed_sum m c hx hk) cover_sum

end Cert.KernelIdeal.ColValue

end
-- ==== Proof.RefValue.lean ====
/-
  The reference, read against the column specification.

  The reference crops rows 192 … 479, forms a = -20 · (x · k + (1 - k) · 100), takes the column maximum M
  (a max-reduce from -∞ over the 288 rows) and the column sum S = 0 + Σ exp (a - M) · k, and then combines
  M, S and the bin weights by a fixed chain of host operations (tail).  Here: the run's result is
  tail M S bin_weights; M at (b, w) is the specification's column maximum; S at (b, w) is its column sum.
  The row that cropped row j of column (b, w) reads is row 192 + j of the image.
-/
import proofs.«122003_j69973607186476_1_alg».proof.Proof.Gen.ReferenceIdeal.Run
import proofs.«122003_j69973607186476_1_alg».proof.Proof.Gen.ReferenceIdeal.Read
import proofs.«122003_j69973607186476_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ReferenceIdeal.Value
open Idealize.ShloMosaic Idealize.ShloMosaic.TcCoe Idealize.SL.Sem Idealize.ShloMosaic.ValueIdx

variable {F : FTy → Type} [FloatOps F]

/-- What both programs do with the column maximum cm, the column sum cs and the bin weights bw:
    log-weights log (bw + 1e-10); per (image, bin) the maximum Mb over columns of cm + log-weight; the sum over
    columns of exp (log-weight + cm - Mb) · cs; clearance -(Mb + log (sum + 1e-10)) / 20; and 100 where the bin's
    total weight · 288 is below 1e-6. -/
def tail (cm cs : (⟨S64x640, .f32⟩ : BufTy).Contents (Elt F)) (bw : (⟨S32x640, .f32⟩ : BufTy).Contents (Elt F)) :
    (⟨S64x32, .f32⟩ : BufTy).Contents (Elt F) :=
  select (broadcastInDim S64x32 ![0, 1] bcast_S1x32_S64x32_0_1 (cmpf .olt (broadcastInDim S1x32 ![1] bcast_S32_S1x32_1 (mulf (Host.reduceAdd bw (constant S_ .f32 0x00000000#32) reducesTo_S32x640_S32_d1 h_S_) (broadcastInDim S32 ![] bcast_S_S32 (constant S_ .f32 0x43900000#32)))) (broadcastInDim S1x32 ![] bcast_S_S1x32 (constant S_ .f32 0x358637BD#32)))) (broadcastInDim S64x32 ![] bcast_S_S64x32 (id (constant S_ .f32 0x42C80000#32))) (Host.divf (Host.negf (addf (Host.reduce FloatOps.maximumf (addf (broadcastInDim S64x32x640 ![0, 1, 2] bcast_S64x1x640_S64x32x640_0_1_2 (broadcastInDim S64x1x640 ![0, 2] bcast_S64x640_S64x1x640_0_2 cm)) (broadcastInDim S64x32x640 ![0, 1, 2] bcast_S1x32x640_S64x32x640_0_1_2 (broadcastInDim S1x32x640 ![1, 2] bcast_S32x640_S1x32x640_1_2 (Host.log (addf bw (broadcastInDim S32x640 ![] bcast_S_S32x640 (constant S_ .f32 0x2EDBE6FF#32))))))) (constant S_ .f32 0xFF800000#32) reducesTo_S64x32x640_S64x32_d2 h_S_) (Host.log (addf (Host.reduceAdd (mulf (Host.exp (subf (addf (broadcastInDim S64x32x640 ![0, 1, 2] bcast_S1x32x640_S64x32x640_0_1_2 (broadcastInDim S1x32x640 ![1, 2] bcast_S32x640_S1x32x640_1_2 (Host.log (addf bw (broadcastInDim S32x640 ![] bcast_S_S32x640 (constant S_ .f32 0x2EDBE6FF#32)))))) (broadcastInDim S64x32x640 ![0, 1, 2] bcast_S64x1x640_S64x32x640_0_1_2 (broadcastInDim S64x1x640 ![0, 2] bcast_S64x640_S64x1x640_0_2 cm))) (broadcastInDim S64x32x640 ![0, 1, 2] bcast_S64x32x1_S64x32x640_0_1_2 (broadcastInDim S64x32x1 ![0, 1] bcast_S64x32_S64x32x1_0_1 (Host.reduce FloatOps.maximumf (addf (broadcastInDim S64x32x640 ![0, 1, 2] bcast_S64x1x640_S64x32x640_0_1_2 (broadcastInDim S64x1x640 ![0, 2] bcast_S64x640_S64x1x640_0_2 cm)) (broadcastInDim S64x32x640 ![0, 1, 2] bcast_S1x32x640_S64x32x640_0_1_2 (broadcastInDim S1x32x640 ![1, 2] bcast_S32x640_S1x32x640_1_2 (Host.log (addf bw (broadcastInDim S32x640 ![] bcast_S_S32x640 (constant S_ .f32 0x2EDBE6FF#32))))))) (constant S_ .f32 0xFF800000#32) reducesTo_S64x32x640_S64x32_d2 h_S_))))) (broadcastInDim S64x32x640 ![0, 1, 2] bcast_S64x1x640_S64x32x640_0_1_2 (broadcastInDim S64x1x640 ![0, 2] bcast_S64x640_S64x1x640_0_2 cs))) (constant S_ .f32 0x00000000#32) reducesTo_S64x32x640_S64x32_d2 h_S_) (broadcastInDim S64x32 ![] bcast_S_S64x32 (constant S_ .f32 0x2EDBE6FF#32)))))) (broadcastInDim S64x32 ![] bcast_S_S64x32 (constant S_ .f32 0x41A00000#32)))

set_option maxRecDepth 8192 in
/-- The reference's result is the tail of its column maximum, its column sum and the bin weights. -/
theorem res_eq (m : (ℓ : Loc nD τ sig) → Buf (Elt F) ℓ) (c : Dev nD) :
    res_main_v52 m c
      = tail (val_main_v13 (F := F) (m ((c.tc : Thread nD τ).loc main_arg0)) (m ((c.tc : Thread nD τ).loc main_arg1)))
          (val_main_v19 (F := F) (m ((c.tc : Thread nD τ).loc main_arg0)) (m ((c.tc : Thread nD τ).loc main_arg1)))
          (m ((c.tc : Thread nD τ).loc main_arg2)) := rfl

/-- The scaled masked depth at a cropped pixel. -/
theorem negDepth_apply (x0 x1 : (⟨S64x480x640, .f32⟩ : BufTy).Contents (Elt Ideal)) (i : S64x288x640.Idx) :
    val_main_v12 (F := Ideal) x0 x1 i = Cert.Spec.nd (x0 (idx_main_v0 i)) (x1 (idx_main_v0 i)) := by
  rw [val_main_v12_apply, val_main_v11_apply, val_main_cst_2_apply, val_main_v7_apply, val_main_v2_apply,
    val_main_v0_apply, val_main_v1_apply, val_main_v6_apply, val_main_v4_apply, val_main_v3_apply, val_main_cst_apply,
    val_main_v5_apply, val_main_cst_0_apply, val_main_v1_apply]
  rfl

/-- Cropped pixel (b, j, w) is pixel (b, 192 + j, w) of the image. -/
theorem idx_crop (b : Fin 64) (j : Fin 288) (w : Fin 640) :
    idx_main_v0 (ix3 b j w : S64x288x640.Idx) = Cert.Spec.rowIdx b j w :=
  funext fun a => Fin.ext (by match a with | ⟨0, _⟩ => rfl | ⟨1, _⟩ => rfl | ⟨2, _⟩ => rfl)

/-- The column maximum at (b, w). -/
theorem colMax_apply (x0 x1 : (⟨S64x480x640, .f32⟩ : BufTy).Contents (Elt Ideal)) (b : Fin 64) (w : Fin 640) :
    val_main_v13 (F := Ideal) x0 x1 (ix2 b w) = Cert.Spec.colMaxAt x0 x1 b w := by
  unfold val_main_v13
  rw [Host.reduce_eq_fold_single FloatOps.maximumf _ _ reducesTo_S64x288x640_S64x640_d1 (by decide) h_S_]
  unfold Cert.Spec.colMaxAt
  refine Eq.trans (b := Finset.univ.fold max (Ideal.ofBits .f32 0xFF800000#32) (Cert.Spec.rowA x0 x1 b w)) ?_ (by rw [Cert.Spec.ofBits_negInf])
  refine Finset.fold_congr fun j _ => ?_
  show val_main_v12 (F := Ideal) x0 x1 _ = Cert.Spec.rowA x0 x1 b w j
  rw [negDepth_apply]
  unfold Cert.Spec.rowA
  rw [← idx_crop b j w]
  rfl

/-- The column sum at (b, w). -/
theorem colSum_apply (x0 x1 : (⟨S64x480x640, .f32⟩ : BufTy).Contents (Elt Ideal)) (b : Fin 64) (w : Fin 640) :
    val_main_v19 (F := Ideal) x0 x1 (ix2 b w) = Cert.Spec.colSumAt x0 x1 b w := by
  rw [val_main_v19_apply]
  unfold Cert.Spec.colSumAt
  refine congrArg₂ (· + ·) Cert.Spec.ofBits_zero (Finset.sum_congr rfl fun j _ => ?_)
  have hi : idx_main_v19 (ix2 b w) j = (ix3 b j w : S64x288x640.Idx) :=
    funext fun a => Fin.ext (by match a with | ⟨0, _⟩ => rfl | ⟨1, _⟩ => rfl | ⟨2, _⟩ => rfl)
  have hm : idx_main_v14 (idx_main_v15 (ix3 b j w : S64x288x640.Idx)) = ix2 b w :=
    funext fun a => Fin.ext (by match a with | ⟨0, _⟩ => rfl | ⟨1, _⟩ => rfl)
  rw [hi, val_main_v18_apply, val_main_v17_apply, val_main_v16_apply, val_main_v15_apply, val_main_v14_apply,
    val_main_v1_apply, negDepth_apply, hm, colMax_apply, idx_crop,
    show idx_main_v1 (ix3 b j w : S64x288x640.Idx) = Cert.Spec.rowIdx b j w from idx_crop b j w]
  rfl

end Cert.ReferenceIdeal.RefValue

end
-- ==== Proof.KernelRun.lean ====
/-
  The kernel's run, read: its result is the common tail of the column maxima, the column sums and the bin
  weights.

  After the region the host operations read the two output arrays and the bin weights; the result buffer is
  what they compute from them.  With the output arrays at the specification's column maxima and column sums
  (finite images), the result is tail (column maxima) (column sums) (bin weights); the arguments end unchanged.
-/
import proofs.«122003_j69973607186476_1_alg».proof.Proof.Arrays
import proofs.«122003_j69973607186476_1_alg».proof.Proof.RefValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.ColValue

open Cert.KernelIdeal Cert.KernelIdeal.Gen Cert.Spec

variable (m : (ℓ : Loc nD τ sig) → Buf (Elt Ideal) ℓ) (ρ : Dev nD → PrngReg)

set_option maxHeartbeats 4000000 in
/-- What the host operations after the region leave in the result buffer: the tail of the two output arrays as the
    region leaves them and of the bin weights. -/
theorem tail_eq (c : Dev nD) :
    Pipeline.afterTail₀ cfgs (dats m) 0 (V0 m) [hostOps1, hostOps1_1] c main_v36
      = Cert.ReferenceIdeal.RefValue.tail (F := Ideal) ((dats m 0 c).arrAt 2 cfg0.N) ((dats m 0 c).arrAt 3 cfg0.N)
          (m ((c : Thread nD τ).loc main_arg2)) := by
  have w2 : Pipeline.withArrays (cfgs 0).spec c (V0 m c) (fun w => (dats m 0 c).arrAt w (cfgs 0).N) (Proc.devRef .tc main_v0_0)
      = (dats m 0 c).arrAt 2 cfg0.N :=
    Pipeline.withArrays_arr spec0 launch0.win.arr_inj c (V0 m c) (fun w => (dats m 0 c).arrAt w (cfgs 0).N) 2
  have w3 : Pipeline.withArrays (cfgs 0).spec c (V0 m c) (fun w => (dats m 0 c).arrAt w (cfgs 0).N) (Proc.devRef .tc main_v0_1)
      = (dats m 0 c).arrAt 3 cfg0.N :=
    Pipeline.withArrays_arr spec0 launch0.win.arr_inj c (V0 m c) (fun w => (dats m 0 c).arrAt w (cfgs 0).N) 3
  have wb : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  simp only [hostOps1, hostOps1_1, List.flatten_cons, List.flatten_nil, List.append_nil, List.cons_append, List.nil_append]
  after_results
  rw [w2, w3, wb]
  rfl

/-- The run: the result buffer at the tail of the specification's column maxima and sums, the arguments unchanged. -/
theorem run (hfin : ∀ c : Dev nD, (∀ i, Xa m c i ≠ ⊤ ∧ Xa m c i ≠ ⊥) ∧ (∀ i, Ka m c i ≠ ⊤ ∧ Ka m c i ≠ ⊥)) :
    θ_run defs (onTc (τ := τ) (main (F := Ideal))) ⟨m, fun _ => 0, ρ⟩ fun r => ∀ c : Dev nD,
      r.2.mem ((c.tc : Thread nD τ).loc main_v36)
        = Cert.ReferenceIdeal.RefValue.tail (F := Ideal) (maxArr m c) (sumArr m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v36 (Pipeline.mem_restRefs_of main_v36 (by decide) (by decide))).trans
        ((tail_eq m c).trans (by rw [final_max m c, final_sum m c (hfin c).1 (hfin c).2])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.ColValue

end
-- ==== Proof.Finite.lean ====
/-
  From the precondition to real entries.

  The precondition says |x| < +∞ at every entry of each argument (three all-reductions of comparisons, joined by
  and).  On the extended reals |x| is max x (-x), which is +∞ at both infinities, so each entry of the depth and of
  the mask array is a real.
-/
import proofs.«122003_j69973607186476_1_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

/-- The rank-0 shape has one index. -/
instance : Subsingleton S_.Idx := ⟨fun a b => funext fun d => d.elim0⟩

/-- The pattern of +∞ denotes ⊤. -/
theorem ofBits_posInf : Ideal.ofBits .f32 0x7F800000#32 = ⊤ := by
  simp [Ideal.ofBits, Ideal.ieee]

/-- An extended real whose absolute value compares below +∞ is a real. -/
theorem real_of_abs_lt (x : EReal) (h : Ideal.cmp .olt (max x (-x)) (Ideal.ofBits .f32 0x7F800000#32) = 1#1) :
    x ≠ ⊤ ∧ x ≠ ⊥ := by
  rw [ofBits_posInf] at h
  have hlt : max x (-x) < ⊤ := by
    by_contra hn
    have : Ideal.cmp .olt (max x (-x)) ⊤ = 0#1 := by
      unfold Ideal.cmp; simp only [decide_eq_false hn]; rfl
    rw [this] at h; exact absurd h (by decide)
  constructor
  · rintro rfl; simp at hlt
  · rintro rfl; simp at hlt

/-- Under the precondition every entry of the depth array and of the mask array is a real. -/
theorem real_args [Cert.Pre_finite_inputs.Facts] (x0 x1 : FVec Ideal S64x480x640 .f32) (x2 : FVec Ideal S32x640 .f32)
    (h : Cert.Pre_finite_inputs.fn (F := Ideal) x0 x1 x2 = fun _ => 1#1) :
    (∀ i, x0 i ≠ ⊤ ∧ x0 i ≠ ⊥) ∧ (∀ i, x1 i ≠ ⊤ ∧ x1 i ≠ ⊥) := by
  have h0 := congrFun h ValueIdx.ix0
  dsimp only [Cert.Pre_finite_inputs.fn] at h0
  obtain ⟨hab, -⟩ := IntOp.andi_eq_one.1 h0
  obtain ⟨ha, hb⟩ := IntOp.andi_eq_one.1 hab
  exact ⟨fun i => real_of_abs_lt _ (Host.reduce_andi_all _ _ _ _ _ ha i),
    fun i => real_of_abs_lt _ (Host.reduce_andi_all _ _ _ _ _ hb i)⟩

end Cert.Finite

end
-- ==== Proof.lean ====
/-
  Equivalence of a blocked online soft-min column reduction with its one-pass reference.

  Both programs reduce, for each of 64 depth images and each of 640 columns, the cropped rows 192 … 479 of
  a = -20 · (x · k + (1 - k) · 100) (x the depth, k the mask) to the column maximum M = max a and the column sum
  S = Σ exp (a - M) · k, and then combine M, S and the bin weights by one and the same chain of host operations.
  The reference takes M and S in one pass.  The kernel walks three row blocks of 96 rows, carrying a running
  maximum and a running sum that it rescales by exp (m_old - m_new) whenever the maximum moves.  For finite
  inputs every a is a real, the rescaling telescopes (exp (a - m0) · exp (m0 - m1) = exp (a - m1)) and distributes
  over the finite sums, so the kernel's two arrays are M and S (Proof/RowBlocks.lean is the law; Proof/Spec.lean the
  column specification; Proof/Pieces, Payload, Column, Arrays, KernelRun read the kernel's run; Proof/RefValue the
  reference's; Proof/Finite turns the precondition into real entries).  The frames are the programs' generated
  frame runs; the idealization rewrote nothing.
-/
import proofs.«122003_j69973607186476_1_alg».proof.Defs
import proofs.«122003_j69973607186476_1_alg».proof.Proof.Gen.Kernel
import proofs.«122003_j69973607186476_1_alg».proof.Proof.Gen.Kernel.Skeleton
import proofs.«122003_j69973607186476_1_alg».proof.Proof.Gen.Kernel.Launch
import proofs.«122003_j69973607186476_1_alg».proof.Proof.Gen.Kernel.Points
import proofs.«122003_j69973607186476_1_alg».proof.Proof.Gen.Kernel.Frame
import proofs.«122003_j69973607186476_1_alg».proof.Proof.Gen.KernelIdeal
import proofs.«122003_j69973607186476_1_alg».proof.Proof.Gen.KernelIdeal.Skeleton
import proofs.«122003_j69973607186476_1_alg».proof.Proof.Gen.KernelIdeal.Launch
import proofs.«122003_j69973607186476_1_alg».proof.Proof.Gen.KernelIdeal.Points
import proofs.«122003_j69973607186476_1_alg».proof.Proof.Gen.KernelIdeal.Frame
import proofs.«122003_j69973607186476_1_alg».proof.Proof.Gen.ReferenceIdeal
import proofs.«122003_j69973607186476_1_alg».proof.Proof.Gen.Pre_finite_inputs
import proofs.«122003_j69973607186476_1_alg».proof.Proof.Gen.ReferenceIdeal.Run
import proofs.«122003_j69973607186476_1_alg».proof.Proof.Gen.ReferenceIdeal.Read
import proofs.«122003_j69973607186476_1_alg».proof.Proof.KernelRun
import proofs.«122003_j69973607186476_1_alg».proof.Proof.RefValue
import proofs.«122003_j69973607186476_1_alg».proof.Proof.Finite
import Idealize.ShloMosaic.Adequacy
import Idealize.ShloMosaic.Init

noncomputable section

namespace Cert.Proof

open Idealize.ShloMosaic Idealize.SL.Sem Idealize.ShloMosaic.ValueIdx

/-- The two idealized programs end with equal results: both results are the tail of the column maxima, the column
    sums and the bin weights of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin : ∀ c : Dev Cert.KernelIdeal.nD,
      (∀ i, Cert.KernelIdeal.ColValue.Xa m c i ≠ ⊤ ∧ Cert.KernelIdeal.ColValue.Xa m c i ≠ ⊥)
      ∧ (∀ i, Cert.KernelIdeal.ColValue.Ka m c i ≠ ⊤ ∧ Cert.KernelIdeal.ColValue.Ka m c i ≠ ⊥) :=
    fun c => Cert.Finite.real_args _ _ _ (hpre c)
  refine ⟨fun c => Cert.ReferenceIdeal.RefValue.tail (F := Ideal) (Cert.KernelIdeal.ColValue.maxArr m c)
    (Cert.KernelIdeal.ColValue.sumArr m c) (m ((c.tc : Thread Cert.KernelIdeal.nD Cert.KernelIdeal.τ).loc Cert.KernelIdeal.main_arg2)),
    Cert.KernelIdeal.ColValue.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq, (hagree c).1, (hagree c).2.1, (hagree c).2.2]
  refine congrArg₂ (fun cm cs => Cert.ReferenceIdeal.RefValue.tail (F := Ideal) cm cs _) (funext fun j => ?_) (funext fun j => ?_)
  · obtain ⟨b, w, rfl⟩ : ∃ (b : Fin 64) (w : Fin 640), j = ix2 b w := ⟨j 0, j 1, eq_ix2 j⟩
    exact Cert.ReferenceIdeal.RefValue.colMax_apply _ _ b w
  · obtain ⟨b, w, rfl⟩ : ∃ (b : Fin 64) (w : Fin 640), j = ix2 b w := ⟨j 0, j 1, eq_ix2 j⟩
    exact Cert.ReferenceIdeal.RefValue.colSum_apply _ _ b w

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
